-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S10000 : Shape := ⟨1, ![10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg7 : FVec F S64 .f32) (main_arg8 : FVec F S64x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S10000x128 .f32) (main_arg1 : IVec S640000 32) (main_arg2 : IVec S640000 32) (main_arg3 : IVec S10000 32) (main_arg4 : FVec F S128x128 .f32) (main_arg5 : FVec F S128 .f32) (main_arg6 : FVec F S128x64 .f32) (main_arg7 : FVec F S64 .f32) (main_arg8 : FVec F S64x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_arg8 main_v13 main_v16
-- ==== Kernel.lean ====
abbrev S10000x128 : Shape := ⟨2, ![10000, 128]⟩
abbrev S640000 : Shape := ⟨1, ![640000]⟩
abbrev S10000 : Shape := ⟨1, ![10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩
abbrev S640000x1 : Shape := ⟨2, ![640000, 1]⟩
abbrev S10000x1 : Shape := ⟨2, ![10000, 1]⟩
abbrev S5000x128 : Shape := ⟨2, ![5000, 128]⟩
abbrev S640000x128 : Shape := ⟨2, ![640000, 128]⟩
abbrev S1x128 : Shape := ⟨2, ![1, 128]⟩
abbrev S10000x64 : Shape := ⟨2, ![10000, 64]⟩
abbrev S5000x1 : Shape := ⟨2, ![5000, 1]⟩
abbrev S5000x64 : Shape := ⟨2, ![5000, 64]⟩
abbrev S640000x64 : Shape := ⟨2, ![640000, 64]⟩
abbrev S1x64 : Shape := ⟨2, ![1, 64]⟩
abbrev S100x64 : Shape := ⟨2, ![100, 64]⟩
abbrev S100 : Shape := ⟨1, ![100]⟩
abbrev S100x1 : Shape := ⟨2, ![100, 1]⟩
abbrev S100x1x64 : Shape := ⟨3, ![100, 1, 64]⟩
abbrev S1x64x64 : Shape := ⟨3, ![1, 64, 64]⟩
abbrev S100x64x64 : Shape := ⟨3, ![100, 64, 64]⟩
abbrev S100x64x1 : Shape := ⟨3, ![100, 64, 1]⟩

abbrev nBuf : Space → Nat
  | .hbm => 95
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S10000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S10000, .f32⟩
  | .hbm, ⟨13, _⟩ => ⟨S640000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000, .f32⟩
  | .hbm, ⟨37, _⟩ => ⟨S640000, .f32⟩
  | .hbm, ⟨38, _⟩ => ⟨S10000, .f32⟩
  | .hbm, ⟨39, _⟩ => ⟨S10000x1, .f32⟩
  | .hbm, ⟨40, _⟩ => ⟨S10000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S640000x1, .f32⟩
  | .hbm, ⟨51, _⟩ => ⟨S640000x128, .f32⟩
  | .hbm, ⟨52, _⟩ => ⟨S640000x128, .f32⟩
  | .hbm, ⟨53, _⟩ => ⟨S_, .f32⟩
  | .hbm, ⟨54, _⟩ => ⟨S10000x128, .f32⟩
  | .hbm, ⟨55, _⟩ => ⟨S640000x1, .i32⟩
  | .hbm, ⟨56, _⟩ => ⟨S10000x128, .f32⟩
  | .hbm, ⟨57, _⟩ => ⟨S1x128, .f32⟩
  | .hbm, ⟨58, _⟩ => ⟨S10000x64, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x64, .f32⟩
  | .hbm, ⟨68, _⟩ => ⟨S640000x1, .f32⟩
  | .hbm, ⟨69, _⟩ => ⟨S640000x64, .f32⟩
  | .hbm, ⟨70, _⟩ => ⟨S640000x64, .f32⟩
  | .hbm, ⟨71, _⟩ => ⟨S_, .f32⟩
  | .hbm, ⟨72, _⟩ => ⟨S10000x64, .f32⟩
  | .hbm, ⟨73, _⟩ => ⟨S640000x1, .i32⟩
  | .hbm, ⟨74, _⟩ => ⟨S10000x64, .f32⟩
  | .hbm, ⟨75, _⟩ => ⟨S1x64, .f32⟩
  | .hbm, ⟨76, _⟩ => ⟨S10000x64, .f32⟩
  | .hbm, ⟨77, _⟩ => ⟨S_, .f32⟩
  | .hbm, ⟨78, _⟩ => ⟨S100x64, .f32⟩
  | .hbm, ⟨79, _⟩ => ⟨S10000x1, .i32⟩
  | .hbm, ⟨80, _⟩ => ⟨S100x64, .f32⟩
  | .hbm, ⟨81, _⟩ => ⟨S_, .f32⟩
  | .hbm, ⟨82, _⟩ => ⟨S10000, .f32⟩
  | .hbm, ⟨83, _⟩ => ⟨S_, .f32⟩
  | .hbm, ⟨84, _⟩ => ⟨S100, .f32⟩
  | .hbm, ⟨85, _⟩ => ⟨S10000x1, .i32⟩
  | .hbm, ⟨86, _⟩ => ⟨S100, .f32⟩
  | .hbm, ⟨87, _⟩ => ⟨S_, .f32⟩
  | .hbm, ⟨88, _⟩ => ⟨S100, .f32⟩
  | .hbm, ⟨89, _⟩ => ⟨S100, .f32⟩
  | .hbm, ⟨90, _⟩ => ⟨S100x1, .f32⟩
  | .hbm, ⟨91, _⟩ => ⟨S100x64, .f32⟩
  | .hbm, ⟨92, _⟩ => ⟨S100x64, .f32⟩
  | .hbm, ⟨93, _⟩ => ⟨S100x64, .f32⟩
  | .hbm, ⟨94, _⟩ => ⟨S100x64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S100x64, .f32⟩
  | .local _ .vmem, ⟨25, _⟩ => ⟨S64x64, .f32⟩
  | .local _ .vmem, ⟨26, _⟩ => ⟨S100x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S100x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S100x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  shapeCasts_S10000_S10000x1 : S10000.ShapeCasts S10000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S640000x1_S640000x64_0_1 : S640000x1.BroadcastsInDim S640000x64 (![0, 1] : Fin 2 → Fin S640000x64.rank)
  bcast_S_S10000x64 : S_.BroadcastsInDim S10000x64 (![] : Fin 0 → Fin S10000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S100x64 : S_.BroadcastsInDim S100x64 (![] : Fin 0 → Fin S100x64.rank)
  bcast_S10000_S10000x1_0 : S10000.BroadcastsInDim S10000x1 (![0] : Fin 1 → Fin S10000x1.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  inb_S100x64_S100x64_0_0 : ∀ a, (![0, 0] : Fin 2 → Nat) a + S100x64.size a ≤ S100x64.size a
  h_S100x64 : 0 < S100x64.numel
  shapeCasts_S100x64_S100x64 : S100x64.ShapeCasts S100x64
  inb_S64x64_S64x64_0_0 : ∀ a, (![0, 0] : Fin 2 → Nat) a + S64x64.size a ≤ S64x64.size a
  h_S64x64 : 0 < S64x64.numel
  shapeCasts_S100x64_S100x1x64 : S100x64.ShapeCasts S100x1x64
  shapeCasts_S64x64_S1x64x64 : S64x64.ShapeCasts S1x64x64
  broadcasts_S100x1x64_S100x64x64 : S100x1x64.Broadcasts S100x64x64
  broadcasts_S1x64x64_S100x64x64 : S1x64x64.Broadcasts S100x64x64
  reduces_S100x64x64_S100x64 : S100x64x64.Reduces [2] S100x64
  bcast_S100x64_S100x64x1_0_1 : S100x64.BroadcastsInDim S100x64x1 (![0, 1] : Fin 2 → Fin S100x64x1.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  dot_S5000x128_S128x128_S5000x128_1_0_0_1_n_n_wf : DotDims.WF S5000x128 S128x128 S5000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S5000x128_S128x64_S5000x64_1_0_0_1_n_n_wf : DotDims.WF S5000x128 S128x64 S5000x64 [1] [0] [0] [1] [] []
  gather_S10000x64_S640000x1_S640000x64_1_0_n_n_0_1_164_wf : GatherDims.WF S10000x64 S640000x1 S640000x64 [1] [0] [] [0] [] 1 ![1, 64]
  scatter_S10000x64_S640000x1_S640000x64_1_0_0_1_wf : ScatterDims.WF S10000x64 S640000x1 S640000x64 [1] [0] [0] 1
  scatter_S100x64_S10000x1_S10000x64_1_0_0_1_wf : ScatterDims.WF S100x64 S10000x1 S10000x64 [1] [0] [0] 1
  scatter_S100_S10000x1_S10000_n_0_0_1_wf : ScatterDims.WF S100 S10000x1 S10000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S10000x128.size a
  hwx0_0 : ∀ i : grid0.Coords, EltTy.bits .f32 = 32 ∨ (Rect.block (s := S10000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S10000x128.size a
  hwx0_2 : ∀ i : grid0.Coords, EltTy.bits .f32 = 32 ∨ (Rect.block (s := S10000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S10000x128.size a
  hwx1_0 : ∀ i : grid1.Coords, EltTy.bits .f32 = 32 ∨ (Rect.block (s := S10000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S10000x128.size a
  hwx1_1 : ∀ i : grid1.Coords, EltTy.bits .f32 = 32 ∨ (Rect.block (s := S10000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S10000x1.size a
  hwx1_2 : ∀ i : grid1.Coords, EltTy.bits .f32 = 32 ∨ (Rect.block (s := S10000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S10000x64.size a
  hwx1_5 : ∀ i : grid1.Coords, EltTy.bits .f32 = 32 ∨ (Rect.block (s := S10000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S10000x64.size a
  hwx2_0 : ∀ i : grid2.Coords, EltTy.bits .f32 = 32 ∨ (Rect.block (s := S10000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S10000x64.size a
  hwx2_1 : ∀ i : grid2.Coords, EltTy.bits .f32 = 32 ∨ (Rect.block (s := S10000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S10000x1.size a
  hwx2_2 : ∀ i : grid2.Coords, EltTy.bits .f32 = 32 ∨ (Rect.block (s := S10000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S10000x64.size a
  hwx2_4 : ∀ i : grid2.Coords, EltTy.bits .f32 = 32 ∨ (Rect.block (s := S10000x64) S5000x64.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S100x64.size a ≤ S100x64.size a
  hwx3_0 : ∀ i : grid3.Coords, EltTy.bits .f32 = 32 ∨ (Rect.block (s := S100x64) S100x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100x64.size a ≤ S100x64.size a
  hwx3_2 : ∀ i : grid3.Coords, EltTy.bits .f32 = 32 ∨ (Rect.block (s := S100x64) S100x64.size (cc3_transform_2 i) (hinb3_2 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S10000x64_S640000x1_S640000x64_1_0_n_n_0_1_164 : GatherDims S10000x64 S640000x1 S640000x64 where
  offsetDims := [1]
  collapsedSliceDims := [0]
  operandBatchingDims := []
  startIndicesBatchingDims := []
  startIndexMap := [0]
  indexVectorDim := 1
  sliceSizes := ![1, 64]
  wf := gather_S10000x64_S640000x1_S640000x64_1_0_n_n_0_1_164_wf
def scatter_S10000x64_S640000x1_S640000x64_1_0_0_1 : ScatterDims S10000x64 S640000x1 S640000x64 where
  updateWindowDims := [1]
  insertedWindowDims := [0]
  scatterDimsToOperandDims := [0]
  indexVectorDim := 1
  wf := scatter_S10000x64_S640000x1_S640000x64_1_0_0_1_wf
def scatter_S100x64_S10000x1_S10000x64_1_0_0_1 : ScatterDims S100x64 S10000x1 S10000x64 where
  updateWindowDims := [1]
  insertedWindowDims := [0]
  scatterDimsToOperandDims := [0]
  indexVectorDim := 1
  wf := scatter_S100x64_S10000x1_S10000x64_1_0_0_1_wf
def scatter_S100_S10000x1_S10000_n_0_0_1 : ScatterDims S100 S10000x1 S10000 where
  updateWindowDims := []
  insertedWindowDims := [0]
  scatterDimsToOperandDims := [0]
  indexVectorDim := 1
  wf := scatter_S100_S10000x1_S10000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v66) S100x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S100x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S640000 : Shape := ⟨1, ![640000]⟩
abbrev S10000 : Shape := ⟨1, ![10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩
abbrev S640000x1 : Shape := ⟨2, ![640000, 1]⟩
abbrev S640000x128 : Shape := ⟨2, ![640000, 128]⟩
abbrev S10000x1 : Shape := ⟨2, ![10000, 1]⟩
abbrev S1x128 : Shape := ⟨2, ![1, 128]⟩
abbrev S10000x64 : Shape := ⟨2, ![10000, 64]⟩
abbrev S640000x64 : Shape := ⟨2, ![640000, 64]⟩
abbrev S1x64 : Shape := ⟨2, ![1, 64]⟩
abbrev S100x64 : Shape := ⟨2, ![100, 64]⟩
abbrev S100 : Shape := ⟨1, ![100]⟩
abbrev S100x1 : Shape := ⟨2, ![100, 1]⟩
abbrev S100x1x64 : Shape := ⟨3, ![100, 1, 64]⟩
abbrev S1x64x64 : Shape := ⟨3, ![1, 64, 64]⟩
abbrev S100x64x64 : Shape := ⟨3, ![100, 64, 64]⟩
abbrev S100x64x1 : Shape := ⟨3, ![100, 64, 1]⟩

abbrev nBuf : Space → Nat
  | .hbm => 146
  | .vmem => 0
  | .smem => 0
  | _ => 0

abbrev hbmTy0_0 (i : Nat) : BufTy := match i % 128 with
  | 0 => ⟨S10000x128, .f32⟩
  | 1 => ⟨S640000, .i32⟩
  | 2 => ⟨S640000, .i32⟩
  | 3 => ⟨S10000, .i32⟩
  | 4 => ⟨S128x128, .f32⟩
  | 5 => ⟨S128, .f32⟩
  | 6 => ⟨S128x64, .f32⟩
  | 7 => ⟨S64, .f32⟩
  | 8 => ⟨S64x64, .f32⟩
  | 9 => ⟨S10000x128, .f32⟩
  | 10 => ⟨S_, .f32⟩
  | 11 => ⟨S640000, .f32⟩
  | 12 => ⟨S_, .f32⟩
  | 13 => ⟨S10000, .f32⟩
  | 14 => ⟨S640000x1, .i32⟩
  | 15 => ⟨S10000, .f32⟩
  | 16 => ⟨S_, .f32⟩
  | 17 => ⟨S10000, .f32⟩
  | 18 => ⟨S10000, .f32⟩
  | 19 => ⟨S10000, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000, .f32⟩
  | 38 => ⟨S640000, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S640000x1, .f32⟩
  | 49 => ⟨S640000x128, .f32⟩
  | 50 => ⟨S640000x128, .f32⟩
  | 51 => ⟨S_, .f32⟩
  | 52 => ⟨S10000x128, .f32⟩
  | 53 => ⟨S640000x1, .i32⟩
  | 54 => ⟨S10000x128, .f32⟩
  | 55 => ⟨S10000, .f32⟩
  | 56 => ⟨S10000x1, .f32⟩
  | 57 => ⟨S10000x128, .f32⟩
  | 58 => ⟨S10000x128, .f32⟩
  | 59 => ⟨S10000x128, .f32⟩
  | 60 => ⟨S1x128, .f32⟩
  | 61 => ⟨S10000x128, .f32⟩
  | 62 => ⟨S10000x128, .f32⟩
  | 63 => ⟨S_, .f32⟩
  | 64 => ⟨S10000x128, .f32⟩
  | 65 => ⟨S10000x128, .f32⟩
  | 66 => ⟨S10000x64, .f32⟩
  | 67 => ⟨S_, .f32⟩
  | 68 => ⟨S640000, .f32⟩
  | 69 => ⟨S_, .f32⟩
  | 70 => ⟨S10000, .f32⟩
  | 71 => ⟨S640000x1, .i32⟩
  | 72 => ⟨S10000, .f32⟩
  | 73 => ⟨S_, .f32⟩
  | 74 => ⟨S10000, .f32⟩
  | 75 => ⟨S10000, .f32⟩
  | 76 => ⟨S10000, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000, .f32⟩
  | 95 => ⟨S640000, .f32⟩
  | 96 => ⟨S_, .i32⟩
  | 97 => ⟨S640000, .i32⟩
  | 98 => ⟨S640000, .i1⟩
  | 99 => ⟨S_, .i32⟩
  | 100 => ⟨S640000, .i32⟩
  | 101 => ⟨S640000, .i32⟩
  | 102 => ⟨S640000, .i32⟩
  | 103 => ⟨S640000x1, .i32⟩
  | 104 => ⟨S640000x64, .f32⟩
  | 105 => ⟨S640000x1, .f32⟩
  | 106 => ⟨S640000x64, .f32⟩
  | 107 => ⟨S640000x64, .f32⟩
  | 108 => ⟨S_, .f32⟩
  | 109 => ⟨S10000x64, .f32⟩
  | 110 => ⟨S640000x1, .i32⟩
  | 111 => ⟨S10000x64, .f32⟩
  | 112 => ⟨S10000, .f32⟩
  | 113 => ⟨S10000x1, .f32⟩
  | 114 => ⟨S10000x64, .f32⟩
  | 115 => ⟨S10000x64, .f32⟩
  | 116 => ⟨S10000x64, .f32⟩
  | 117 => ⟨S1x64, .f32⟩
  | 118 => ⟨S10000x64, .f32⟩
  | 119 => ⟨S10000x64, .f32⟩
  | 120 => ⟨S_, .f32⟩
  | 121 => ⟨S100x64, .f32⟩
  | 122 => ⟨S10000x1, .i32⟩
  | 123 => ⟨S100x64, .f32⟩
  | 124 => ⟨S_, .f32⟩
  | 125 => ⟨S10000, .f32⟩
  | 126 => ⟨S_, .f32⟩
  | 127 => ⟨S100, .f32⟩
  | _ => ⟨S10000x128, .f32⟩

abbrev hbmTy0_1 (i : Nat) : BufTy := match i % 128 with
  | 0 => ⟨S10000x1, .i32⟩
  | 1 => ⟨S100, .f32⟩
  | 2 => ⟨S_, .f32⟩
  | 3 => ⟨S100, .f32⟩
  | 4 => ⟨S100, .f32⟩
  | 5 => ⟨S100x1, .f32⟩
  | 6 => ⟨S100x64, .f32⟩
  | 7 => ⟨S100x64, .f32⟩
  | 8 => ⟨S100x1x64, .f32⟩
  | 9 => ⟨S1x64x64, .f32⟩
  | 10 => ⟨S100x64x64, .f32⟩
  | 11 => ⟨S100x64x64, .f32⟩
  | 12 => ⟨S100x64x64, .f32⟩
  | 13 => ⟨S100x64x64, .f32⟩
  | 14 => ⟨S_, .f32⟩
  | 15 => ⟨S100x64, .f32⟩
  | 16 => ⟨S100x64, .f32⟩
  | 17 => ⟨S100x64x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_c_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_21 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_22 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S640000x1_S640000x64_0_1 : S640000x1.BroadcastsInDim S640000x64 (![0, 1] : Fin 2 → Fin S640000x64.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S100x64 : S_.BroadcastsInDim S100x64 (![] : Fin 0 → Fin S100x64.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  bcast_S100x64_S100x1x64_0_2 : S100x64.BroadcastsInDim S100x1x64 (![0, 2] : Fin 2 → Fin S100x1x64.rank)
  bcast_S64x64_S1x64x64_1_2 : S64x64.BroadcastsInDim S1x64x64 (![1, 2] : Fin 2 → Fin S1x64x64.rank)
  bcast_S100x1x64_S100x64x64_0_1_2 : S100x1x64.BroadcastsInDim S100x64x64 (![0, 1, 2] : Fin 3 → Fin S100x64x64.rank)
  bcast_S1x64x64_S100x64x64_0_1_2 : S1x64x64.BroadcastsInDim S100x64x64 (![0, 1, 2] : Fin 3 → Fin S100x64x64.rank)
  reducesTo_S100x64x64_S100x64_d2 : S100x64x64.ReducesTo [2] S100x64
  h_S_ : 0 < S_.numel
  bcast_S100x64_S100x64x1_0_1 : S100x64.BroadcastsInDim S100x64x1 (![0, 1] : Fin 2 → Fin S100x64x1.rank)
  dot_S10000x128_S128x128_S10000x128_1_0_0_1_n_n_wf : DotDims.WF S10000x128 S128x128 S10000x128 [1] [0] [0] [1] [] []
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x64_S10000x64_1_0_0_1_n_n_wf : DotDims.WF S10000x128 S128x64 S10000x64 [1] [0] [0] [1] [] []
  gather_S10000x64_S640000x1_S640000x64_1_0_n_n_0_1_164_wf : GatherDims.WF S10000x64 S640000x1 S640000x64 [1] [0] [] [0] [] 1 ![1, 64]
  scatter_S10000x64_S640000x1_S640000x64_1_0_0_1_wf : ScatterDims.WF S10000x64 S640000x1 S640000x64 [1] [0] [0] 1
  scatter_S100x64_S10000x1_S10000x64_1_0_0_1_wf : ScatterDims.WF S100x64 S10000x1 S10000x64 [1] [0] [0] 1
  scatter_S100_S10000x1_S10000_n_0_0_1_wf : ScatterDims.WF S100 S10000x1 S10000 [] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S640000x1_S640000x64_1_0_n_n_0_1_164 : GatherDims S10000x64 S640000x1 S640000x64 where
  offsetDims := [1]
  collapsedSliceDims := [0]
  operandBatchingDims := []
  startIndicesBatchingDims := []
  startIndexMap := [0]
  indexVectorDim := 1
  sliceSizes := ![1, 64]
  wf := gather_S10000x64_S640000x1_S640000x64_1_0_n_n_0_1_164_wf
def scatter_S10000x64_S640000x1_S640000x64_1_0_0_1 : ScatterDims S10000x64 S640000x1 S640000x64 where
  updateWindowDims := [1]
  insertedWindowDims := [0]
  scatterDimsToOperandDims := [0]
  indexVectorDim := 1
  wf := scatter_S10000x64_S640000x1_S640000x64_1_0_0_1_wf
def scatter_S100x64_S10000x1_S10000x64_1_0_0_1 : ScatterDims S100x64 S10000x1 S10000x64 where
  updateWindowDims := [1]
  insertedWindowDims := [0]
  scatterDimsToOperandDims := [0]
  indexVectorDim := 1
  wf := scatter_S100x64_S10000x1_S10000x64_1_0_0_1_wf
def scatter_S100_S10000x1_S10000_n_0_0_1 : ScatterDims S100 S10000x1 S10000 where
  updateWindowDims := []
  insertedWindowDims := [0]
  scatterDimsToOperandDims := [0]
  indexVectorDim := 1
  wf := scatter_S100_S10000x1_S10000_n_0_0_1_wf

class Facts : Prop extends Facts₀ where

variable [Facts]
-- ==== Proof.Spec.lean ====
/-
  The reference program read as a few coarse stages, so that the kernel program's stretches of host
  operations and its four kernel regions can each be matched with one of them.

  The reference computes, from node features `x`, edge lists `src`, `dst`, a graph assignment `batch`, two weight
  matrices and biases and a bank of candidates:
    deg = 1 + (number of edges into each node),  dinv = deg^(-1/2),  coef e = dinv (src e) · dinv (dst e),
    h1 = x · W1,        agg1 n = Σ_{e : dst e = n} h1 (src e) · coef e,
    a1 = max (agg1 + h1 · dinv² + b1) 0,
    h2 = a1 · W2,       agg2 n = Σ_{e : dst e = n} h2 (src e) · coef e,
    z  = agg2 + h2 · dinv² + b2,
    g  = (Σ_{n : batch n = ·} z n) / max (count) 1,
    out (q, k) = sqrt (Σ_d (g (q, d) - cand (k, d))²).
  Each definition below is one such stage as a function of the ARRAYS it consumes (not of the program's arguments),
  written with the reference's own host operations; the lemmas after them say that the reference's stages, as its
  generated reading names them, are these functions of one another.
-/
import proofs.«137382_j18743237280517_1_alg».proof.Proof.Gen.ReferenceIdeal.Read

noncomputable section

namespace Cert.ReferenceIdeal.Spec

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Messages summed into their destination rows, 128 features wide: row `n` is the sum over the edges `e` with
    `dst e = n` of `h (src e) · coef e` (a negative `src` counted from the end, as jnp indexing does). -/
def agg128 (h : (⟨S10000x128, .f32⟩ : BufTy).Contents (Elt F)) (coef : (⟨S640000, .f32⟩ : BufTy).Contents (Elt F))
    (src dst : (⟨S640000, .i32⟩ : BufTy).Contents (Elt F)) : (⟨S10000x128, .f32⟩ : BufTy).Contents (Elt F) :=
  Host.scatterAdd scatter_S10000x128_S640000x1_S640000x128_1_0_0_1 (val_main_v33 (F := F)) (val_main_v34 (F := F) dst)
    (mulf (Host.gather gather_S10000x128_S640000x1_S640000x128_1_0_n_n_0_1_1128 h (val_main_v28 (F := F) src))
      (broadcastInDim S640000x128 ![0, 1] bcast_S640000x1_S640000x128_0_1 (broadcastInDim S640000x1 ![0] bcast_S640000_S640000x1_0 coef)))

/-- The same sum of messages, 64 features wide. -/
def agg64 (h : (⟨S10000x64, .f32⟩ : BufTy).Contents (Elt F)) (coef : (⟨S640000, .f32⟩ : BufTy).Contents (Elt F))
    (src dst : (⟨S640000, .i32⟩ : BufTy).Contents (Elt F)) : (⟨S10000x64, .f32⟩ : BufTy).Contents (Elt F) :=
  Host.scatterAdd scatter_S10000x64_S640000x1_S640000x64_1_0_0_1 (val_main_v78 (F := F)) (val_main_v79 (F := F) dst)
    (mulf (Host.gather gather_S10000x64_S640000x1_S640000x64_1_0_n_n_0_1_164 h (val_main_v73 (F := F) src))
      (broadcastInDim S640000x64 ![0, 1] bcast_S640000x1_S640000x64_0_1 (broadcastInDim S640000x1 ![0] bcast_S640000_S640000x1_0 coef)))

/-- The first layer after its aggregation: `max (agg + h · d2 + b) 0` row by row, then the product with `w`.
    `d2` is a column (one scale per node), `b` a row (one bias per feature). -/
def layer1 (agg h : (⟨S10000x128, .f32⟩ : BufTy).Contents (Elt F)) (d2 : (⟨S10000x1, .f32⟩ : BufTy).Contents (Elt F))
    (b : (⟨S1x128, .f32⟩ : BufTy).Contents (Elt F)) (w : (⟨S128x64, .f32⟩ : BufTy).Contents (Elt F)) :
    (⟨S10000x64, .f32⟩ : BufTy).Contents (Elt F) :=
  Host.dotGeneral dot_S10000x128_S128x64_S10000x64_1_0_0_1_n_n none
    (maximumf (addf (addf agg (mulf h (broadcastInDim S10000x128 ![0, 1] bcast_S10000x1_S10000x128_0_1 d2)))
      (broadcastInDim S10000x128 ![0, 1] bcast_S1x128_S10000x128_0_1 b)) (val_main_call0_v0 (F := F))) w

/-- The second layer's combination: `agg + h · d2 + b`, entry by entry. -/
def layer2 (agg h : (⟨S10000x64, .f32⟩ : BufTy).Contents (Elt F)) (d2 : (⟨S10000x1, .f32⟩ : BufTy).Contents (Elt F))
    (b : (⟨S1x64, .f32⟩ : BufTy).Contents (Elt F)) : (⟨S10000x64, .f32⟩ : BufTy).Contents (Elt F) :=
  addf (addf agg (mulf h (broadcastInDim S10000x64 ![0, 1] bcast_S10000x1_S10000x64_0_1 d2)))
    (broadcastInDim S10000x64 ![0, 1] bcast_S1x64_S10000x64_0_1 b)

/-- The mean of the node rows of each graph: the rows summed by `batch`, over `max count 1`. -/
def pool (z : (⟨S10000x64, .f32⟩ : BufTy).Contents (Elt F)) (batch : (⟨S10000, .i32⟩ : BufTy).Contents (Elt F)) :
    (⟨S100x64, .f32⟩ : BufTy).Contents (Elt F) :=
  Host.divf (Host.scatterAdd scatter_S100x64_S10000x1_S10000x64_1_0_0_1 (val_main_v89 (F := F)) (val_main_v90 (F := F) batch) z)
    (val_main_v99 (F := F) batch)

/-- The difference of every graph row and every candidate row, feature by feature. -/
def diff (g : (⟨S100x64, .f32⟩ : BufTy).Contents (Elt F)) (cand : (⟨S64x64, .f32⟩ : BufTy).Contents (Elt F)) :
    (⟨S100x64x64, .f32⟩ : BufTy).Contents (Elt F) :=
  subf (broadcastInDim S100x64x64 ![0, 1, 2] bcast_S100x1x64_S100x64x64_0_1_2 (broadcastInDim S100x1x64 ![0, 2] bcast_S100x64_S100x1x64_0_2 g))
    (broadcastInDim S100x64x64 ![0, 1, 2] bcast_S1x64x64_S100x64x64_0_1_2 (broadcastInDim S1x64x64 ![1, 2] bcast_S64x64_S1x64x64_1_2 cand))

/-- The Euclidean distance of every graph row to every candidate row. -/
def dist (g : (⟨S100x64, .f32⟩ : BufTy).Contents (Elt F)) (cand : (⟨S64x64, .f32⟩ : BufTy).Contents (Elt F)) :
    (⟨S100x64, .f32⟩ : BufTy).Contents (Elt F) :=
  Host.sqrt (Host.reduceAdd (mulf (diff g cand) (diff g cand)) (val_main_cst_22 (F := F)) reducesTo_S100x64x64_S100x64_d2 h_S_)

/-- The result with its trailing unit axis. -/
def withUnit (s : (⟨S100x64, .f32⟩ : BufTy).Contents (Elt F)) : (⟨S100x64x1, .f32⟩ : BufTy).Contents (Elt F) :=
  broadcastInDim S100x64x1 ![0, 1] bcast_S100x64_S100x64x1_0_1 s

/-! ## The reference's stages are these functions of one another -/

variable (x0 : (⟨S10000x128, .f32⟩ : BufTy).Contents (Elt F)) (x1 x2 : (⟨S640000, .i32⟩ : BufTy).Contents (Elt F))
  (x3 : (⟨S10000, .i32⟩ : BufTy).Contents (Elt F)) (x4 : (⟨S128x128, .f32⟩ : BufTy).Contents (Elt F))
  (x5 : (⟨S128, .f32⟩ : BufTy).Contents (Elt F)) (x6 : (⟨S128x64, .f32⟩ : BufTy).Contents (Elt F))
  (x7 : (⟨S64, .f32⟩ : BufTy).Contents (Elt F)) (x8 : (⟨S64x64, .f32⟩ : BufTy).Contents (Elt F))

/-- The second layer recomputes the degree scale from the same edges: the same array. -/
theorem dinv_again : val_main_v52 (F := F) x2 = val_main_v7 (F := F) x2 := rfl

/-- And the same edge coefficients. -/
theorem coef_again : val_main_v67 (F := F) x1 x2 = val_main_v22 (F := F) x1 x2 := rfl

theorem agg1_eq : val_main_v35 (F := F) x0 x1 x2 x4 = agg128 (val_main_v0 (F := F) x0 x4) (val_main_v22 (F := F) x1 x2) x1 x2 := rfl

theorem h2_eq : val_main_v45 (F := F) x0 x1 x2 x4 x5 x6
    = layer1 (val_main_v35 (F := F) x0 x1 x2 x4) (val_main_v0 (F := F) x0 x4) (val_main_v37 (F := F) x2) (val_main_v41 (F := F) x5) x6 := rfl

theorem agg2_eq : val_main_v80 (F := F) x0 x1 x2 x4 x5 x6
    = agg64 (val_main_v45 (F := F) x0 x1 x2 x4 x5 x6) (val_main_v22 (F := F) x1 x2) x1 x2 := rfl

theorem z_eq : val_main_v88 (F := F) x0 x1 x2 x4 x5 x6 x7
    = layer2 (val_main_v80 (F := F) x0 x1 x2 x4 x5 x6) (val_main_v45 (F := F) x0 x1 x2 x4 x5 x6) (val_main_v37 (F := F) x2) (val_main_v86 (F := F) x7) := rfl

theorem g_eq : val_main_v100 (F := F) x0 x1 x2 x3 x4 x5 x6 x7 = pool (val_main_v88 (F := F) x0 x1 x2 x4 x5 x6 x7) x3 := rfl

theorem out_eq : val_main_v109 (F := F) x0 x1 x2 x3 x4 x5 x6 x7 x8
    = withUnit (dist (val_main_v100 (F := F) x0 x1 x2 x3 x4 x5 x6 x7) x8) := rfl

end Cert.ReferenceIdeal.Spec

end
-- ==== Proof.Stretches.lean ====
/-
  The kernel program's five stretches of host operations, each read as a function of the buffers it starts from.
  Between the kernel regions the program runs on the host exactly the reference's own operations (the degree scale,
  the edge coefficients, the two gather / multiply / scatter-add aggregations, the mean pooling, the trailing unit
  axis), so each stretch's results are the reference's stage functions (Spec.lean) of the stretch's inputs, and every
  buffer a stretch does not write keeps its contents.
-/
import proofs.«137382_j18743237280517_1_alg».proof.Proof.Gen.KernelIdeal.Launch
import proofs.«137382_j18743237280517_1_alg».proof.Proof.Spec
import Idealize.ShloMosaic.Lib.StableHlo.Run
import Idealize.ShloMosaic.Lib.ValueLayout

noncomputable section

namespace Cert.KernelIdeal.Stretch

open Cert.KernelIdeal Cert.KernelIdeal.Gen
open Idealize.ShloMosaic Idealize.ShloMosaic.TcCoe Idealize.SL.Sem Idealize.ShloMosaic.StableHlo

/-! ## A vector given a unit axis: the reshape and the broadcast along the new axis are the same array -/

/-- A vector `[n]` reshaped to a column `[n, 1]` is the vector broadcast along a new trailing unit axis: entry `(p, 0)`
    has flat position `p · 1 + 0 = p` in the column, and the broadcast reads the operand at the coordinate on axis `0`. -/
theorem shapeCast_col_eq_broadcastInDim {α : Type} {n : ℕ} (v : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ v h = broadcastInDim ⟨2, ![n, 1]⟩ ![0] hb v := by
  funext i
  obtain ⟨p, q, rfl⟩ : ∃ (p : Fin n) (q : Fin 1), i = ValueIdx.ix2 p q := ⟨i 0, i 1, ValueIdx.eq_ix2 i⟩
  rw [shapeCast_apply v h _ (ValueIdx.ix1 p) (by
        rw [Shape.rowMajor_val_one, Shape.rowMajor_val_two]
        show p.val = p.val * 1 + q.val
        have hq : q.val = 0 := by omega
        rw [hq, Nat.mul_one, Nat.add_zero]),
      broadcastInDim_apply ![0] hb v _ (ValueIdx.ix1 p) (fun a => match a with
        | ⟨0, _⟩ => by
          show p.val = if n = 1 then 0 else p.val
          split
          · have := p.isLt; omega
          · rfl)]

/-- A vector `[n]` reshaped to a row `[1, n]` is the vector broadcast along a new leading unit axis: entry `(0, p)`
    has flat position `p` in the row, and the broadcast reads the operand at the coordinate on axis `1`. -/
theorem shapeCast_row_eq_broadcastInDim {α : Type} {n : ℕ} (v : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v h = broadcastInDim ⟨2, ![1, n]⟩ ![1] hb v := by
  funext i
  obtain ⟨u, p, rfl⟩ : ∃ (u : Fin 1) (p : Fin n), i = ValueIdx.ix2 u p := ⟨i 0, i 1, ValueIdx.eq_ix2 i⟩
  rw [ValueIdx.shapeCast_a_1a_apply v h u p,
      broadcastInDim_apply ![1] hb v _ (ValueIdx.ix1 p) (fun a => match a with
        | ⟨0, _⟩ => by
          show p.val = if n = 1 then 0 else p.val
          split
          · have := p.isLt; omega
          · rfl)]

variable (W : Valuation τ sig (Elt Ideal))

/-! ## Before the first region: the degree scale and the edge coefficients -/

/-- The edge coefficients `dinv (src e) · dinv (dst e)`. -/
theorem s0_coef : after (hostOps0 (F := Ideal)) W (Proc.devRef .tc main_v21)
    = Cert.ReferenceIdeal.Read.val_main_v22 (F := Ideal) (W (Proc.devRef .tc main_arg1)) (W (Proc.devRef .tc main_arg2)) := by
  after_results_simp
  rfl

/-- The squared degree scale as a column: the kernel program reshapes the vector, the reference broadcasts it along a
    new unit axis; entry `(n, 0)` is entry `n` either way. -/
theorem s0_dinv2 : after (hostOps0 (F := Ideal)) W (Proc.devRef .tc main_v23)
    = Cert.ReferenceIdeal.Read.val_main_v37 (F := Ideal) (W (Proc.devRef .tc main_arg2)) := by
  after_results_simp
  unfold Cert.ReferenceIdeal.Read.val_main_v37
  exact shapeCast_col_eq_broadcastInDim (n := 10000) _ _ _

/-- The stretch writes none of the program's arguments. -/
theorem s0_keep (b : Ref sig .tc) (hb : b ∈ ([main_arg0, main_arg1, main_arg2, main_arg3, main_arg4, main_arg5, main_arg6, main_arg7, main_arg8] : List (Ref sig .tc))) :
    after (hostOps0 (F := Ideal)) W (Proc.devRef .tc b) = W (Proc.devRef .tc b) := by
  simp only [List.mem_cons, List.mem_nil_iff, or_false] at hb
  rcases hb with rfl | rfl | rfl | rfl | rfl | rfl | rfl | rfl | rfl <;> after_results_simp

/-! ## Between the first and the second region: the first aggregation -/

theorem s1_agg : after (hostOps1 (F := Ideal)) W (Proc.devRef .tc main_v37)
    = Cert.ReferenceIdeal.Spec.agg128 (F := Ideal) (W (Proc.devRef .tc main_v24)) (W (Proc.devRef .tc main_v21)) (W (Proc.devRef .tc main_arg1)) (W (Proc.devRef .tc main_arg2)) := by
  after_results_simp
  rfl

/-- The first bias as a row: a reshape here, a broadcast along a new unit axis in the reference. -/
theorem s1_bias : after (hostOps1 (F := Ideal)) W (Proc.devRef .tc main_v38)
    = Cert.ReferenceIdeal.Read.val_main_v41 (F := Ideal) (W (Proc.devRef .tc main_arg5)) := by
  after_results_simp
  unfold Cert.ReferenceIdeal.Read.val_main_v41
  exact shapeCast_row_eq_broadcastInDim (n := 128) _ _ _

theorem s1_keep (b : Ref sig .tc) (hb : b ∈ ([main_v24, main_v23, main_v21, main_arg1, main_arg2, main_arg3, main_arg6, main_arg7, main_arg8] : List (Ref sig .tc))) :
    after (hostOps1 (F := Ideal)) W (Proc.devRef .tc b) = W (Proc.devRef .tc b) := by
  simp only [List.mem_cons, List.mem_nil_iff, or_false] at hb
  rcases hb with rfl | rfl | rfl | rfl | rfl | rfl | rfl | rfl | rfl <;> after_results_simp

/-! ## Between the second and the third region: the second aggregation -/

theorem s2_agg : after (hostOps2 (F := Ideal)) W (Proc.devRef .tc main_v52)
    = Cert.ReferenceIdeal.Spec.agg64 (F := Ideal) (W (Proc.devRef .tc main_v39)) (W (Proc.devRef .tc main_v21)) (W (Proc.devRef .tc main_arg1)) (W (Proc.devRef .tc main_arg2)) := by
  after_results_simp
  rfl

theorem s2_bias : after (hostOps2 (F := Ideal)) W (Proc.devRef .tc main_v53)
    = Cert.ReferenceIdeal.Read.val_main_v86 (F := Ideal) (W (Proc.devRef .tc main_arg7)) := by
  after_results_simp
  unfold Cert.ReferenceIdeal.Read.val_main_v86
  exact shapeCast_row_eq_broadcastInDim (n := 64) _ _ _

theorem s2_keep (b : Ref sig .tc) (hb : b ∈ ([main_v39, main_v23, main_arg3, main_arg8] : List (Ref sig .tc))) :
    after (hostOps2 (F := Ideal)) W (Proc.devRef .tc b) = W (Proc.devRef .tc b) := by
  simp only [List.mem_cons, List.mem_nil_iff, or_false] at hb
  rcases hb with rfl | rfl | rfl | rfl <;> after_results_simp

/-! ## Between the third and the fourth region: the mean over each graph -/

theorem s3_pool : after (hostOps3 (F := Ideal)) W (Proc.devRef .tc main_v66)
    = Cert.ReferenceIdeal.Spec.pool (F := Ideal) (W (Proc.devRef .tc main_v54)) (W (Proc.devRef .tc main_arg3)) := by
  after_results_simp
  rfl

theorem s3_keep : after (hostOps3 (F := Ideal)) W (Proc.devRef .tc main_arg8) = W (Proc.devRef .tc main_arg8) := by
  after_results

/-! ## After the last region: the trailing unit axis -/

theorem s4_out : after (hostOps4 (F := Ideal)) W (Proc.devRef .tc main_v68)
    = Cert.ReferenceIdeal.Spec.withUnit (F := Ideal) (W (Proc.devRef .tc main_v67)) := by
  after_results
  rfl

end Cert.KernelIdeal.Stretch

end
-- ==== Proof.Region0.lean ====
/-
  Kernel region 0: the first projection. Each of the two grid points multiplies its 5000 rows of the node features by
  the whole first weight matrix (the narrowing of both factors to bf16 is the identity on extended reals, and the
  accumulator starts at zero) and writes the 5000 result rows back; the two row blocks tile the array, so the array
  ends as the whole product x · W1, which is the reference's first stage.
-/
import proofs.«137382_j18743237280517_1_alg».proof.Proof.Gen.KernelIdeal.Frame
import proofs.«137382_j18743237280517_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.StableHlo

variable (V : (c : Dev nD) → (b : Ref sig .tc) → Buf (Elt Ideal) ((c : Thread nD τ).loc b))

/-- Every access of the body starts at the origin of its staging buffer. -/
theorem hz : (![0, 0] : Fin 2 → Nat) = fun _ => 0 := funext fun a => by fin_cases a <;> rfl

/-! ## The block product at an index -/

/-- The left factor's row is the output's row, -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the contraction index; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right factor's row is the contraction index, -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- its column the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- On extended reals the narrowing of the factors is the identity and the accumulator is zero, so entry (p, q) of the
    body's result is the plain sum over k of X (p, k) · W (k, q). -/
theorem block_product (X : Vec Ideal S5000x128 .f32) (W : Vec Ideal S128x128 .f32) (p : Fin 5000) (q : Fin 128) :
    k0_pay1 (F := Ideal) X W (ValueIdx.ix2 p q) = ∑ k : Fin 128, X (ValueIdx.ix2 p k) * W (ValueIdx.ix2 k q) := by
  unfold k0_pay1
  refine (Ideal.matmul_constant_zero_apply dot_S5000x128_S128x128_S5000x128_1_0_0_1_n_n none _ _ (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_row _ _).trans hk
    | ⟨1, _⟩ => exact rhs_col _ _)
  rw [el, er]
  rfl

/-! ## The blocks as rows of the arrays -/

/-- The printed index maps, decided over the two grid points: the feature window moves with the output's row block and
    sits at column block 0, the weight window stays at block (0, 0), and the output's row block is 0 or 1. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 1
    ∧ win0_2.index t (1 : Fin 2) = 0 :=
  (by decide +kernel : ∀ t : Fin grid0.N, _)

/-- Each of the two row blocks is some point's. -/
theorem idx_onto : ∀ r : Fin 2, ∃ t : Fin cfg0.N, win0_2.index t = ![r.val, 0] :=
  (by decide +kernel : ∀ r : Fin 2, ∃ t : Fin grid0.N, win0_2.index t = ![r.val, 0])

/-- Entry (p, k) of the feature block at point t is entry (5000 · (t's row block) + p, k) of x. -/
theorem xblk_apply (c : Dev nD) (t : Fin cfg0.N) (p : Fin 5000) (k : Fin 128) (i : S10000x128.Idx)
    (h0 : (i 0).val = win0_2.index t (0 : Fin 2) * 5000 + p.val) (h1 : (i 1).val = k.val) :
    (iblk0 (F := Ideal) V c 0 t : Vec Ideal S5000x128 .f32) (ValueIdx.ix2 p k) = (V c main_arg0 : S10000x128.Idx → Elt Ideal .f32) i := by
  obtain ⟨e0, e1, -, -, -, -⟩ := idx_facts t
  unfold iblk0
  rw [View.read_apply]
  show V c main_arg0 (((cfg0.win 0).blk t).view.emb (ValueIdx.ix2 p k)) = V c main_arg0 i
  congr 1
  funext a
  apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- The weight block at every point is the whole of W1. -/
theorem wblk_apply (c : Dev nD) (t : Fin cfg0.N) (k : Fin 128) (q : Fin 128) (i : S128x128.Idx)
    (h0 : (i 0).val = k.val) (h1 : (i 1).val = q.val) :
    (iblk0 (F := Ideal) V c 1 t : Vec Ideal S128x128 .f32) (ValueIdx.ix2 k q) = (V c main_arg4 : S128x128.Idx → Elt Ideal .f32) i := by
  obtain ⟨-, -, e2, e3, -, -⟩ := idx_facts t
  unfold iblk0
  rw [View.read_apply]
  show V c main_arg4 (((cfg0.win 1).blk t).view.emb (ValueIdx.ix2 k q)) = V c main_arg4 i
  congr 1
  funext a
  apply Fin.ext
  match a with
  | ⟨0, _⟩ => show win0_1.index t (0 : Fin 2) * 128 + 1 * k.val = (i 0).val; omega
  | ⟨1, _⟩ => show win0_1.index t (1 : Fin 2) * 128 + 1 * q.val = (i 1).val; omega

/-! ## What each point writes back, and the cover -/

/-- What point t writes back is block t of the product x · W1: entry (p, q) of the body's result is the sum over k of
    the feature block's (p, k) times the weight block's (k, q), which are x's (5000 · (row block) + p, k) and W1's
    (k, q), the factors of the product's entry at the block's embedded index. -/
theorem flushed_eq (c : Dev nD) (t : Fin cfg0.N) :
    (dat0 (F := Ideal) V c).flushed 2 t = ((cfg0.win 2).blk t).view.read (Elt Ideal) (Cert.ReferenceIdeal.Read.val_main_v0 (F := Ideal) (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨-, -, -, -, -, e5⟩ := idx_facts t
  funext j
  obtain ⟨p, q, rfl⟩ : ∃ (p : Fin 5000) (q : Fin 128), j = ValueIdx.ix2 p q := ⟨j 0, j 1, ValueIdx.eq_ix2 j⟩
  rw [View.read_apply]
  show k0_pay1 (F := Ideal) (iblk0 (F := Ideal) V c 0 t) (iblk0 (F := Ideal) V c 1 t) (ValueIdx.ix2 p q)
    = Cert.ReferenceIdeal.Read.val_main_v0 (F := Ideal) (V c main_arg0) (V c main_arg4) (((cfg0.win 2).blk t).view.emb (ValueIdx.ix2 p q))
  refine (block_product (iblk0 (F := Ideal) V c 0 t) (iblk0 (F := Ideal) V c 1 t) p q).trans ?_
  rw [Cert.ReferenceIdeal.Read.val_main_v0_apply]
  refine Finset.sum_congr rfl fun k _ => ?_
  rw [xblk_apply V c t p k (Cert.ReferenceIdeal.Read.lidx_main_v0 (((cfg0.win 2).blk t).view.emb (ValueIdx.ix2 p q)) k)
        (show win0_2.index t (0 : Fin 2) * 5000 + 1 * p.val = win0_2.index t (0 : Fin 2) * 5000 + p.val by omega) rfl,
      wblk_apply V c t k q (Cert.ReferenceIdeal.Read.ridx_main_v0 (((cfg0.win 2).blk t).view.emb (ValueIdx.ix2 p q)) k)
        rfl (show win0_2.index t (1 : Fin 2) * 128 + 1 * q.val = q.val by omega)]

/-- An index of the array is in point t's block iff each coordinate is in the block's range on its axis. -/
theorem mem_blk (t : Fin cfg0.N) (i : S10000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v24).slice (win0_2.rect t)).set ↔ _
  rw [View.set_slice_whole, Rect.mem_set_unit]
  exact Iff.rfl

/-- The two row blocks tile the array: row r lies in the block of the point whose row block is r / 5000. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array once every grid point has written its block back. -/
theorem arr (c : Dev nD) : (dat0 (F := Ideal) V c).arrAt 2 cfg0.N
    = Cert.ReferenceIdeal.Read.val_main_v0 (F := Ideal) (V c main_arg0) (V c main_arg4) := by
  exact (dat0 (F := Ideal) V c).arrAt_eq_of_cover 2 (Cert.ReferenceIdeal.Read.val_main_v0 (F := Ideal) (V c main_arg0) (V c main_arg4))
    (fun t _ => flushed_eq V c t) cover

end Cert.KernelIdeal.Region0

end
-- ==== Proof.Region1.lean ====
/-
  Kernel region 1: the first layer after its aggregation. At each of the two grid points the body takes 5000 rows of
  the aggregated messages and of the first projection, the matching 5000 entries of the squared-degree column, the bias
  row and the whole second weight matrix, forms max (agg + h · d2 + b) 0 entry by entry and multiplies by the weights.
  The two row blocks tile the array, so the array ends as the reference's second projection of those five arrays.
-/
import proofs.«137382_j18743237280517_1_alg».proof.Proof.Gen.KernelIdeal.Frame
import proofs.«137382_j18743237280517_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.StableHlo

variable (V : (c : Dev nD) → (b : Ref sig .tc) → Buf (Elt Ideal) ((c : Thread nD τ).loc b))

open Idealize.ShloMosaic.ValueIdx

/-! ## The body's arithmetic at an entry -/

/-- The matmul's left operand index at output entry `i` and contraction index `κ`: row `i 0` … -/
theorem lhs_dot_0 (i : S5000x64.Idx) (κ : dot_S5000x128_S128x64_S5000x64_1_0_0_1_n_n.contr.Idx) :
    (dot_S5000x128_S128x64_S5000x64_1_0_0_1_n_n.lhsIdx i κ 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … column `κ`; -/
theorem lhs_dot_1 (i : S5000x64.Idx) (κ : dot_S5000x128_S128x64_S5000x64_1_0_0_1_n_n.contr.Idx) :
    (dot_S5000x128_S128x64_S5000x64_1_0_0_1_n_n.lhsIdx i κ 1).val = (κ ⟨0, by decide⟩).val :=
  dot_S5000x128_S128x64_S5000x64_1_0_0_1_n_n.lhsIdx_val_of_single rfl i κ
/-- the right operand's: row `κ` … -/
theorem rhs_dot_0 (i : S5000x64.Idx) (κ : dot_S5000x128_S128x64_S5000x64_1_0_0_1_n_n.contr.Idx) :
    (dot_S5000x128_S128x64_S5000x64_1_0_0_1_n_n.rhsIdx i κ 0).val = (κ ⟨0, by decide⟩).val :=
  dot_S5000x128_S128x64_S5000x64_1_0_0_1_n_n.rhsIdx_val_of_single rfl i κ
/-- … column `i 1`. -/
theorem rhs_dot_1 (i : S5000x64.Idx) (κ : dot_S5000x128_S128x64_S5000x64_1_0_0_1_n_n.contr.Idx) :
    (dot_S5000x128_S128x64_S5000x64_1_0_0_1_n_n.rhsIdx i κ 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product of a [5000,128] block with a [128,64] matrix into the zero accumulator, at an entry: row times column. -/
theorem matmul_apply (Y : FVec Ideal S5000x128 .bf16) (Wt : FVec Ideal S128x64 .bf16) (p : Fin 5000) (q : Fin 64) :
    matmul dot_S5000x128_S128x64_S5000x64_1_0_0_1_n_n none Y Wt (constant S5000x64 .f32 0x00000000#32) (ix2 p q)
      = ∑ k : Fin 128, Y (ix2 p k) * Wt (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A column of 5000 entries spread along 128 columns, at an entry: the column's entry of that row. -/
theorem col_apply (D : Vec Ideal S5000x1 .f32) (p : Fin 5000) (k : Fin 128) :
    broadcastTo S5000x128 D broadcasts_S5000x1_S5000x128 (ix2 p k) = D (ix2 p (0 : Fin 1)) :=
  broadcastTo_apply D broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- A row of 128 entries spread along 5000 rows, at an entry: the row's entry of that column. -/
theorem row_apply (B : Vec Ideal S1x128 .f32) (p : Fin 5000) (k : Fin 128) :
    broadcastTo S5000x128 B broadcasts_S1x128_S5000x128 (ix2 p k) = B (ix2 (0 : Fin 1) k) :=
  broadcastTo_apply B broadcasts_S1x128_S5000x128 (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The payload at an entry: the product of row `p` of `max (A + H · D + B) 0` with column `q` of `Wt`. -/
theorem pay_apply (A H : Vec Ideal S5000x128 .f32) (D : Vec Ideal S5000x1 .f32) (B : Vec Ideal S1x128 .f32)
    (Wt : Vec Ideal S128x64 .f32) (p : Fin 5000) (q : Fin 64) :
    k1_pay1 A H D B Wt (ix2 p q)
      = ∑ k : Fin 128, max (A (ix2 p k) + H (ix2 p k) * D (ix2 p (0 : Fin 1)) + B (ix2 (0 : Fin 1) k)) (Ideal.ofBits .f32 0x00000000#32)
          * Wt (ix2 k q) := by
  unfold k1_pay1
  simp only [shapeCast_self]
  rw [matmul_apply]
  refine Finset.sum_congr rfl fun k _ => ?_
  simp only [truncf_apply, maximumf_apply, addf_apply, mulf_apply, broadcast_apply]
  rw [col_apply, row_apply]
  rfl

/-! ## The reference's stage at an entry -/

/-- The reference's product of a [10000,128] array with a [128,64] matrix, at an entry: row times column. -/
theorem ref_dot_apply (Y : FVec Ideal Cert.ReferenceIdeal.S10000x128 .f32) (w : FVec Ideal Cert.ReferenceIdeal.S128x64 .f32)
    (r : Fin 10000) (q : Fin 64) :
    Host.dotGeneral Cert.ReferenceIdeal.dot_S10000x128_S128x64_S10000x64_1_0_0_1_n_n none Y w (ix2 r q)
      = ∑ k : Fin 128, Y (ix2 r k) * w (ix2 k q) := by
  simp only [Host.dotGeneral]
  rw [Ideal.dotGeneral_apply, ← Equiv.sum_comp (contrEquiv1 Cert.ReferenceIdeal.dot_S10000x128_S128x64_S10000x64_1_0_0_1_n_n 128 rfl rfl).symm]
  refine Finset.sum_congr rfl fun k _ => ?_
  have hk := contrEquiv1_symm_val Cert.ReferenceIdeal.dot_S10000x128_S128x64_S10000x64_1_0_0_1_n_n 128 rfl rfl k
  have el : Cert.ReferenceIdeal.dot_S10000x128_S128x64_S10000x64_1_0_0_1_n_n.lhsIdx (ix2 r q) ((contrEquiv1 Cert.ReferenceIdeal.dot_S10000x128_S128x64_S10000x64_1_0_0_1_n_n 128 rfl rfl).symm k) = ix2 r k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S10000x128_S128x64_S10000x64_1_0_0_1_n_n.rhsIdx (ix2 r q) ((contrEquiv1 Cert.ReferenceIdeal.dot_S10000x128_S128x64_S10000x64_1_0_0_1_n_n 128 rfl rfl).symm k) = ix2 k q := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-- The reference's column of 10000 entries spread along 128 columns, at an entry. -/
theorem ref_col_apply (d2 : Cert.ReferenceIdeal.S10000x1.Idx → EReal) (r : Fin 10000) (k : Fin 128) :
    broadcastInDim Cert.ReferenceIdeal.S10000x128 ![0, 1] Cert.ReferenceIdeal.Gen.bcast_S10000x1_S10000x128_0_1 d2 (ix2 r k) = d2 (ix2 r (0 : Fin 1)) :=
  broadcastInDim_apply _ Cert.ReferenceIdeal.Gen.bcast_S10000x1_S10000x128_0_1 d2 (ix2 r k) (ix2 r (0 : Fin 1)) (fun a => match a with
    | ⟨0, _⟩ => by show r.val = if (10000 : Nat) = 1 then 0 else r.val; rw [if_neg (by decide)]
    | ⟨1, _⟩ => by show 0 = if (1 : Nat) = 1 then 0 else k.val; rw [if_pos rfl])

/-- The reference's row of 128 entries spread along 10000 rows, at an entry. -/
theorem ref_row_apply (b : Cert.ReferenceIdeal.S1x128.Idx → EReal) (r : Fin 10000) (k : Fin 128) :
    broadcastInDim Cert.ReferenceIdeal.S10000x128 ![0, 1] Cert.ReferenceIdeal.Gen.bcast_S1x128_S10000x128_0_1 b (ix2 r k) = b (ix2 (0 : Fin 1) k) :=
  broadcastInDim_apply _ Cert.ReferenceIdeal.Gen.bcast_S1x128_S10000x128_0_1 b (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])

/-- The reference's zero array, at an entry: the zero word's value. -/
theorem ref_zero_apply (i : Cert.ReferenceIdeal.S10000x128.Idx) :
    Cert.ReferenceIdeal.Read.val_main_call0_v0 (F := Ideal) i = Ideal.ofBits .f32 0x00000000#32 := by
  rw [Cert.ReferenceIdeal.Read.val_main_call0_v0_apply]
  rfl

/-- The stage at an entry: the product of row `r` of `max (agg + h · d2 + b) 0` with column `q` of `w`. -/
theorem stage_apply (agg h : Cert.ReferenceIdeal.S10000x128.Idx → EReal) (d2 : Cert.ReferenceIdeal.S10000x1.Idx → EReal)
    (b : Cert.ReferenceIdeal.S1x128.Idx → EReal) (w : Cert.ReferenceIdeal.S128x64.Idx → EReal) (r : Fin 10000) (q : Fin 64) :
    Cert.ReferenceIdeal.Spec.layer1 (F := Ideal) agg h d2 b w (ix2 r q)
      = ∑ k : Fin 128, max (agg (ix2 r k) + h (ix2 r k) * d2 (ix2 r (0 : Fin 1)) + b (ix2 (0 : Fin 1) k)) (Ideal.ofBits .f32 0x00000000#32)
          * w (ix2 k q) := by
  unfold Cert.ReferenceIdeal.Spec.layer1
  rw [ref_dot_apply]
  refine Finset.sum_congr rfl fun k _ => ?_
  simp only [maximumf_apply, addf_apply, mulf_apply]
  rw [ref_col_apply, ref_row_apply, ref_zero_apply]

/-! ## From the blocks to the array -/

theorem hz : (![0, 0] : Fin 2 → Nat) = fun _ => 0 := funext fun a => by fin_cases a <;> rfl

/-- The printed index maps, decided over the two grid points: the three row-blocked inputs move with the output's row
    block, the bias row and the weights stay at block 0, and the output's row block is 0 or 1, its column block 0. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 1 ∧ win1_5.index t (1 : Fin 2) = 0 :=
  (by decide +kernel : ∀ t : Fin grid1.N, _)

/-- Each of the two row blocks is some point's. -/
theorem idx_onto : ∀ (b : Fin 2), ∃ t : Fin cfg1.N, win1_5.index t = ![b.val, 0] :=
  (by decide +kernel : ∀ (b : Fin 2), ∃ t : Fin grid1.N, win1_5.index t = ![b.val, 0])

/-- The block of the aggregated messages at point `t`: rows `5000 · (the output's row block) + p`. -/
theorem blk_agg (c : Dev nD) (t : Fin cfg1.N) (p : Fin 5000) (k : Fin 128) (r : Fin 10000)
    (hr : r.val = win1_5.index t (0 : Fin 2) * 5000 + p.val) :
    (iblk1 V c 0 t : Vec Ideal S5000x128 .f32) (ix2 p k) = (V c main_v37 : S10000x128.Idx → EReal) (ix2 r k) := by
  obtain ⟨e0, e1, -⟩ := idx_facts t
  unfold iblk1
  rw [View.read_apply]
  show V c main_v37 (((cfg1.win 0).blk t).view.emb (ix2 p k)) = V c main_v37 (ix2 r k)
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The block of the first projection at point `t`: the same rows. -/
theorem blk_h (c : Dev nD) (t : Fin cfg1.N) (p : Fin 5000) (k : Fin 128) (r : Fin 10000)
    (hr : r.val = win1_5.index t (0 : Fin 2) * 5000 + p.val) :
    (iblk1 V c 1 t : Vec Ideal S5000x128 .f32) (ix2 p k) = (V c main_v24 : S10000x128.Idx → EReal) (ix2 r k) := by
  obtain ⟨-, -, e0, e1, -⟩ := idx_facts t
  unfold iblk1
  rw [View.read_apply]
  show V c main_v24 (((cfg1.win 1).blk t).view.emb (ix2 p k)) = V c main_v24 (ix2 r k)
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- The block of the squared-degree column at point `t`: the same rows. -/
theorem blk_d2 (c : Dev nD) (t : Fin cfg1.N) (p : Fin 5000) (r : Fin 10000)
    (hr : r.val = win1_5.index t (0 : Fin 2) * 5000 + p.val) :
    (iblk1 V c 2 t : Vec Ideal S5000x1 .f32) (ix2 p (0 : Fin 1)) = (V c main_v23 : S10000x1.Idx → EReal) (ix2 r (0 : Fin 1)) := by
  obtain ⟨-, -, -, -, e0, e1, -⟩ := idx_facts t
  unfold iblk1
  rw [View.read_apply]
  show V c main_v23 (((cfg1.win 2).blk t).view.emb (ix2 p (0 : Fin 1))) = V c main_v23 (ix2 r (0 : Fin 1))
  congr 1
  funext a
  apply Fin.ext
  match a with
  | ⟨0, _⟩ => show win1_2.index t (0 : Fin 2) * 5000 + 1 * p.val = r.val; omega
  | ⟨1, _⟩ => show win1_2.index t (1 : Fin 2) * 1 + 1 * 0 = 0; omega

/-- The bias row's block is the whole row at every point. -/
theorem blk_b (c : Dev nD) (t : Fin cfg1.N) (k : Fin 128) :
    (iblk1 V c 3 t : Vec Ideal S1x128 .f32) (ix2 (0 : Fin 1) k) = (V c main_v38 : S1x128.Idx → EReal) (ix2 (0 : Fin 1) k) := by
  obtain ⟨-, -, -, -, -, -, e0, e1, -⟩ := idx_facts t
  unfold iblk1
  rw [View.read_apply]
  show V c main_v38 (((cfg1.win 3).blk t).view.emb (ix2 (0 : Fin 1) k)) = V c main_v38 (ix2 (0 : Fin 1) k)
  congr 1
  funext a
  apply Fin.ext
  match a with
  | ⟨0, _⟩ => show win1_3.index t (0 : Fin 2) * 1 + 1 * 0 = 0; omega
  | ⟨1, _⟩ => show win1_3.index t (1 : Fin 2) * 128 + 1 * k.val = k.val; omega

/-- The weights' block is the whole matrix at every point. -/
theorem blk_w (c : Dev nD) (t : Fin cfg1.N) (k : Fin 128) (q : Fin 64) :
    (iblk1 V c 4 t : Vec Ideal S128x64 .f32) (ix2 k q) = (V c main_arg6 : S128x64.Idx → EReal) (ix2 k q) := by
  obtain ⟨-, -, -, -, -, -, -, -, e0, e1, -⟩ := idx_facts t
  unfold iblk1
  rw [View.read_apply]
  show V c main_arg6 (((cfg1.win 4).blk t).view.emb (ix2 k q)) = V c main_arg6 (ix2 k q)
  congr 1
  funext a
  apply Fin.ext
  match a with
  | ⟨0, _⟩ => show win1_4.index t (0 : Fin 2) * 128 + 1 * k.val = k.val; omega
  | ⟨1, _⟩ => show win1_4.index t (1 : Fin 2) * 64 + 1 * q.val = q.val; omega

/-- What point `t` writes back is its row block of the stage of the five arrays as the region finds them. -/
theorem flushed_eq (c : Dev nD) (t : Fin cfg1.N) :
    (dat1 (F := Ideal) V c).flushed 5 t = ((cfg1.win 5).blk t).view.read (Elt Ideal)
      (Cert.ReferenceIdeal.Spec.layer1 (F := Ideal) (V c main_v37) (V c main_v24) (V c main_v23) (V c main_v38) (V c main_arg6)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz,
    View.ld_unit_zero (S := S128x64) hz]
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  have hr : win1_5.index t (0 : Fin 2) * 5000 + p.val < 10000 := by have := p.isLt; omega
  show k1_pay1 (iblk1 V c 0 t) (iblk1 V c 1 t) (iblk1 V c 2 t) (iblk1 V c 3 t) (iblk1 V c 4 t) (ix2 p q)
    = Cert.ReferenceIdeal.Spec.layer1 (F := Ideal) (V c main_v37) (V c main_v24) (V c main_v23) (V c main_v38) (V c main_arg6)
        (((cfg1.win 5).blk t).view.emb (ix2 p q))
  have hemb : ((cfg1.win 5).blk t).view.emb (ix2 p q) = ix2 (⟨win1_5.index t (0 : Fin 2) * 5000 + p.val, hr⟩ : Fin 10000) q :=
    funext fun a => Fin.ext (by
      match a with
      | ⟨0, _⟩ => show win1_5.index t (0 : Fin 2) * 5000 + 1 * p.val = win1_5.index t (0 : Fin 2) * 5000 + p.val; omega
      | ⟨1, _⟩ => show win1_5.index t (1 : Fin 2) * 64 + 1 * q.val = q.val; omega)
  rw [hemb, stage_apply, pay_apply]
  refine Finset.sum_congr rfl fun k _ => ?_
  rw [blk_agg V c t p k ⟨_, hr⟩ rfl, blk_h V c t p k ⟨_, hr⟩ rfl, blk_d2 V c t p ⟨_, hr⟩ rfl, blk_b V c t k, blk_w V c t k q]

/-- An index of the array is in point `t`'s block iff each coordinate is in the block's range on its axis. -/
theorem mem_blk (t : Fin cfg1.N) (i : S10000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- The two row blocks tile the array: row `r` is in the block of the point whose row block is `r / 5000`. -/
theorem cover (i : S10000x64.Idx) :
    ∃ t : Fin cfg1.N, (cfg1.win 5).flush t = true ∧ i ∈ ((cfg1.win 5).blk t).view.set := by
  have hi0 : (i 0).val < 10000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The region's output array once every grid point has written its block back. -/
theorem arr (c : Dev nD) : (dat1 (F := Ideal) V c).arrAt 5 cfg1.N
    = Cert.ReferenceIdeal.Spec.layer1 (F := Ideal) (V c main_v37) (V c main_v24) (V c main_v23) (V c main_v38) (V c main_arg6) := by
  exact (dat1 (F := Ideal) V c).arrAt_eq_of_cover 5 _ (fun t _ => flushed_eq V c t) cover

end Cert.KernelIdeal.Region1

end
-- ==== Proof.Region2.lean ====
/-
  Kernel region 2: the second layer's combination agg + h · d2 + b, entry by entry on 5000-row blocks; the two blocks
  tile the array.
-/
import proofs.«137382_j18743237280517_1_alg».proof.Proof.Gen.KernelIdeal.Frame
import proofs.«137382_j18743237280517_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.StableHlo

variable (V : (c : Dev nD) → (b : Ref sig .tc) → Buf (Elt Ideal) ((c : Thread nD τ).loc b))

/-! ## The arithmetic at one entry -/

/-- The zero offsets of a whole-block load or store are the constant zero. -/
theorem hz : (![0, 0] : Fin 2 → Nat) = fun _ => 0 := funext fun a => by fin_cases a <;> rfl

/-- The body's arithmetic at entry `(p, q)` of a block: `A + H · D + B`, the column `D` read at row `p` and the row
    `B` read at column `q`. -/
theorem pay_apply (A H : Vec Ideal S5000x64 .f32) (D : Vec Ideal S5000x1 .f32) (B : Vec Ideal S1x64 .f32)
    (p : Fin 5000) (q : Fin 64) :
    k2_pay1 (F := Ideal) A H D B (ValueIdx.ix2 p q)
      = FloatOps.addf (F := Ideal) (φ := .f32) (FloatOps.addf (F := Ideal) (φ := .f32) (A (ValueIdx.ix2 p q))
          (FloatOps.mulf (F := Ideal) (φ := .f32) (H (ValueIdx.ix2 p q)) (D (ValueIdx.ix2 p (0 : Fin 1))))) (B (ValueIdx.ix2 (0 : Fin 1) q)) := by
  show FloatOps.addf (F := Ideal) (φ := .f32) (FloatOps.addf (F := Ideal) (φ := .f32) (shapeCast S5000x64 A shapeCasts_S5000x64_S5000x64 (ValueIdx.ix2 p q))
        (FloatOps.mulf (F := Ideal) (φ := .f32) (shapeCast S5000x64 H shapeCasts_S5000x64_S5000x64 (ValueIdx.ix2 p q))
          (broadcastTo S5000x64 (shapeCast S5000x1 D shapeCasts_S5000x1_S5000x1) broadcasts_S5000x1_S5000x64 (ValueIdx.ix2 p q))))
      (broadcastTo S5000x64 (shapeCast S1x64 B shapeCasts_S1x64_S1x64) broadcasts_S1x64_S5000x64 (ValueIdx.ix2 p q)) = _
  rw [shapeCast_self A, shapeCast_self H, shapeCast_self D, shapeCast_self B]
  rw [broadcastTo_apply D broadcasts_S5000x1_S5000x64 (ValueIdx.ix2 p q) (ValueIdx.ix2 p (0 : Fin 1)) (fun a => match a with
      | ⟨0, _⟩ => by show p.val = if (5000 : Nat) = 1 then 0 else p.val; rw [if_neg (by decide)]
      | ⟨1, _⟩ => by show 0 = if (1 : Nat) = 1 then 0 else q.val; rw [if_pos rfl]),
    broadcastTo_apply B broadcasts_S1x64_S5000x64 (ValueIdx.ix2 p q) (ValueIdx.ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]

/-- The stage at entry `(r, q)` of the array: `agg + h · d2 + b`, the column `d2` read at row `r` and the row `b`
    read at column `q`. -/
theorem stage_apply (agg h : (⟨Cert.ReferenceIdeal.S10000x64, .f32⟩ : BufTy).Contents (Elt Ideal))
    (d2 : (⟨Cert.ReferenceIdeal.S10000x1, .f32⟩ : BufTy).Contents (Elt Ideal))
    (b : (⟨Cert.ReferenceIdeal.S1x64, .f32⟩ : BufTy).Contents (Elt Ideal)) (r : Fin 10000) (q : Fin 64) :
    Cert.ReferenceIdeal.Spec.layer2 (F := Ideal) agg h d2 b (ValueIdx.ix2 r q)
      = FloatOps.addf (F := Ideal) (φ := .f32) (FloatOps.addf (F := Ideal) (φ := .f32) (agg (ValueIdx.ix2 r q))
          (FloatOps.mulf (F := Ideal) (φ := .f32) (h (ValueIdx.ix2 r q)) (d2 (ValueIdx.ix2 r (0 : Fin 1))))) (b (ValueIdx.ix2 (0 : Fin 1) q)) := by
  show FloatOps.addf (F := Ideal) (φ := .f32) (FloatOps.addf (F := Ideal) (φ := .f32) (agg (ValueIdx.ix2 r q))
        (FloatOps.mulf (F := Ideal) (φ := .f32) (h (ValueIdx.ix2 r q))
          (broadcastInDim Cert.ReferenceIdeal.S10000x64 ![0, 1] _ d2 (ValueIdx.ix2 r q))))
      (broadcastInDim Cert.ReferenceIdeal.S10000x64 ![0, 1] _ b (ValueIdx.ix2 r q)) = _
  rw [broadcastInDim_apply _ _ d2 (ValueIdx.ix2 r q) (ValueIdx.ix2 r (0 : Fin 1)) (fun a => match a with
      | ⟨0, _⟩ => by show r.val = if (10000 : Nat) = 1 then 0 else r.val; rw [if_neg (by decide)]
      | ⟨1, _⟩ => by show 0 = if (1 : Nat) = 1 then 0 else q.val; rw [if_pos rfl]),
    broadcastInDim_apply _ _ b (ValueIdx.ix2 r q) (ValueIdx.ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])]

/-! ## The blocks, point by point -/

/-- The printed index maps, decided over the two grid points: the blocks of `agg`, `h` and the column `d2` move with the
    output's block along the rows and stay at block 0 along the columns, the row `b` stays whole, and the output's
    row block is 0 or 1. -/
theorem idx_facts : ∀ t : Fin cfg2.N,
    win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = win2_4.index t (0 : Fin 2)
    ∧ win2_2.index t (1 : Fin 2) = 0
    ∧ win2_3.index t (0 : Fin 2) = 0
    ∧ win2_3.index t (1 : Fin 2) = 0
    ∧ win2_4.index t (0 : Fin 2) ≤ 1
    ∧ win2_4.index t (1 : Fin 2) = 0 :=
  (by decide +kernel : ∀ t : Fin grid2.N, _)

/-- Each of the two row blocks of the output is some point's. -/
theorem idx_onto : ∀ (k : Fin 2), ∃ t : Fin cfg2.N, win2_4.index t = ![k.val, 0] :=
  (by decide +kernel : ∀ (k : Fin 2), ∃ t : Fin grid2.N, win2_4.index t = ![k.val, 0])

/-- The block of `agg` at a point, entry by entry: the array at the block's place. -/
theorem blk_agg (c : Dev nD) (t : Fin cfg2.N) (y : S5000x64.Idx) :
    iblk2 V c 0 t y = V c main_v52 (((cfg2.win 0).blk t).view.emb y) := by
  unfold iblk2; rfl

/-- The block of `h` at a point. -/
theorem blk_h (c : Dev nD) (t : Fin cfg2.N) (y : S5000x64.Idx) :
    iblk2 V c 1 t y = V c main_v39 (((cfg2.win 1).blk t).view.emb y) := by
  unfold iblk2; rfl

/-- The block of the column `d2` at a point. -/
theorem blk_d2 (c : Dev nD) (t : Fin cfg2.N) (y : S5000x1.Idx) :
    iblk2 V c 2 t y = V c main_v23 (((cfg2.win 2).blk t).view.emb y) := by
  unfold iblk2; rfl

/-- The block of the row `b` at a point. -/
theorem blk_b (c : Dev nD) (t : Fin cfg2.N) (y : S1x64.Idx) :
    iblk2 V c 3 t y = V c main_v53 (((cfg2.win 3).blk t).view.emb y) := by
  unfold iblk2; rfl

/-- WHAT POINT `t` WRITES BACK is block `t` of the stage of the arrays as the region finds them: entry `(p, q)` of the
    block is entry `(5000 · (the block's row index) + p, q)` of each of `agg`, `h`, of the column at that row, and of
    the row at `q`. -/
theorem flushed_eq (c : Dev nD) (t : Fin cfg2.N) :
    (dat2 (F := Ideal) V c).flushed 4 t = ((cfg2.win 4).blk t).view.read (Elt Ideal)
      (Cert.ReferenceIdeal.Spec.layer2 (F := Ideal) (V c main_v52) (V c main_v39) (V c main_v23) (V c main_v53)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  obtain ⟨p, q, rfl⟩ : ∃ (p : Fin 5000) (q : Fin 64), j = ValueIdx.ix2 p q := ⟨j 0, j 1, ValueIdx.eq_ix2 j⟩
  have hp : p.val < 5000 := p.isLt
  have hq : q.val < 64 := q.isLt
  refine (pay_apply (iblk2 V c 0 t) (iblk2 V c 1 t) (iblk2 V c 2 t) (iblk2 V c 3 t) p q).trans ?_
  rw [blk_agg, blk_h, blk_d2, blk_b]
  have hr : win2_4.index t (0 : Fin 2) * 5000 + p.val < 10000 := by omega
  show _ = Cert.ReferenceIdeal.Spec.layer2 (F := Ideal) (V c main_v52) (V c main_v39) (V c main_v23) (V c main_v53)
    (((cfg2.win 4).blk t).view.emb (ValueIdx.ix2 p q))
  have h4 : ((cfg2.win 4).blk t).view.emb (ValueIdx.ix2 p q)
      = ValueIdx.ix2 (⟨win2_4.index t (0 : Fin 2) * 5000 + p.val, hr⟩ : Fin 10000) q := by
    funext a; apply Fin.ext
    match a with
    | ⟨0, _⟩ => show win2_4.index t (0 : Fin 2) * 5000 + 1 * p.val = win2_4.index t (0 : Fin 2) * 5000 + p.val; omega
    | ⟨1, _⟩ => show win2_4.index t (1 : Fin 2) * 64 + 1 * q.val = q.val; omega
  have h0 : ((cfg2.win 0).blk t).view.emb (ValueIdx.ix2 p q)
      = ValueIdx.ix2 (⟨win2_4.index t (0 : Fin 2) * 5000 + p.val, hr⟩ : Fin 10000) q := by
    funext a; apply Fin.ext
    match a with
    | ⟨0, _⟩ => show win2_0.index t (0 : Fin 2) * 5000 + 1 * p.val = win2_4.index t (0 : Fin 2) * 5000 + p.val; omega
    | ⟨1, _⟩ => show win2_0.index t (1 : Fin 2) * 64 + 1 * q.val = q.val; omega
  have h1 : ((cfg2.win 1).blk t).view.emb (ValueIdx.ix2 p q)
      = ValueIdx.ix2 (⟨win2_4.index t (0 : Fin 2) * 5000 + p.val, hr⟩ : Fin 10000) q := by
    funext a; apply Fin.ext
    match a with
    | ⟨0, _⟩ => show win2_1.index t (0 : Fin 2) * 5000 + 1 * p.val = win2_4.index t (0 : Fin 2) * 5000 + p.val; omega
    | ⟨1, _⟩ => show win2_1.index t (1 : Fin 2) * 64 + 1 * q.val = q.val; omega
  have h2 : ((cfg2.win 2).blk t).view.emb (ValueIdx.ix2 p (0 : Fin 1))
      = ValueIdx.ix2 (⟨win2_4.index t (0 : Fin 2) * 5000 + p.val, hr⟩ : Fin 10000) (0 : Fin 1) := by
    funext a; apply Fin.ext
    match a with
    | ⟨0, _⟩ => show win2_2.index t (0 : Fin 2) * 5000 + 1 * p.val = win2_4.index t (0 : Fin 2) * 5000 + p.val; omega
    | ⟨1, _⟩ => show win2_2.index t (1 : Fin 2) * 1 + 1 * 0 = 0; omega
  have h3 : ((cfg2.win 3).blk t).view.emb (ValueIdx.ix2 (0 : Fin 1) q) = ValueIdx.ix2 (0 : Fin 1) q := by
    funext a; apply Fin.ext
    match a with
    | ⟨0, _⟩ => show win2_3.index t (0 : Fin 2) * 1 + 1 * 0 = 0; omega
    | ⟨1, _⟩ => show win2_3.index t (1 : Fin 2) * 64 + 1 * q.val = q.val; omega
  rw [h0, h1, h2, h3, h4]
  exact (stage_apply (V c main_v52) (V c main_v39) (V c main_v23) (V c main_v53) _ q).symm

/-! ## The two blocks tile the array -/

/-- An entry of the array is in point `t`'s block iff each coordinate is in the block's range on its axis. -/
theorem mem_blk (t : Fin cfg2.N) (i : S10000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v54).slice (win2_4.rect t)).set ↔ _
  rw [View.set_slice_whole, Rect.mem_set_unit]
  exact Iff.rfl

/-- Every entry of the array is in some point's block, and that point writes its block back: row `r` is in the
    block of row index `r / 5000`. -/
theorem cover (i : S10000x64.Idx) :
    ∃ t : Fin cfg2.N, (cfg2.win 4).flush t = true ∧ i ∈ ((cfg2.win 4).blk t).view.set := by
  have hi0 : (i 0).val < 10000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 64 ≤ (i 1).val ∧ (i 1).val < win2_4.index t (1 : Fin 2) * 64 + 64
    omega

/-- The region's output array once every grid point has written its block back. -/
theorem arr (c : Dev nD) : (dat2 (F := Ideal) V c).arrAt 4 cfg2.N
    = Cert.ReferenceIdeal.Spec.layer2 (F := Ideal) (V c main_v52) (V c main_v39) (V c main_v23) (V c main_v53) := by
  exact (dat2 (F := Ideal) V c).arrAt_eq_of_cover 4 _ (fun t _ => flushed_eq V c t) cover

end Cert.KernelIdeal.Region2

end
-- ==== Proof.Region3.lean ====
/-
  Kernel region 3: the distance of every pooled graph row to every candidate row, in one grid point over whole arrays:
  the rows are laid against each other along a new axis, subtracted, squared, summed over the feature axis, and the
  square root taken; the lane sum and the host's sum are the same finite sum of extended reals.
-/
import proofs.«137382_j18743237280517_1_alg».proof.Proof.Gen.KernelIdeal.Frame
import proofs.«137382_j18743237280517_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem Idealize.ShloMosaic.StableHlo
open Idealize.ShloMosaic.ValueIdx

variable (V : (c : Dev nD) → (b : Ref sig .tc) → Buf (Elt Ideal) ((c : Thread nD τ).loc b))

/-! ## The body's arithmetic at an index -/

/-- A graph row laid along a new middle axis and repeated over the candidates reads, at (q, k, d), the row's entry (q, d). -/
theorem rows_apply (G : Vec Ideal S100x64 .f32) (q : Fin 100) (k d : Fin 64) :
    broadcastTo S100x64x64 (shapeCast S100x1x64 (shapeCast S100x64 G shapeCasts_S100x64_S100x64) shapeCasts_S100x64_S100x1x64)
      broadcasts_S100x1x64_S100x64x64 (ix3 q k d) = G (ix2 q d) := by
  rw [shapeCast_self]
  refine (broadcastTo_apply _ broadcasts_S100x1x64_S100x64x64 (ix3 q k d) (ix3 q (0 : Fin 1) d) fun a => ?_).trans ?_
  · match a with
    | ⟨0, _⟩ => show q.val = if (100 : Nat) = 1 then 0 else q.val; rw [if_neg (by decide)]
    | ⟨1, _⟩ => show 0 = if (1 : Nat) = 1 then 0 else k.val; rw [if_pos rfl]
    | ⟨2, _⟩ => show d.val = if (64 : Nat) = 1 then 0 else d.val; rw [if_neg (by decide)]
  · exact shapeCast_apply G shapeCasts_S100x64_S100x1x64 (ix3 q (0 : Fin 1) d) (ix2 q d) (by
      rw [Shape.rowMajor_val_two, Shape.rowMajor_val_three]
      show q.val * 64 + d.val = (q.val * 1 + 0) * 64 + d.val
      omega)

/-- The candidates under a new leading axis, repeated over the graph rows, read at (q, k, d) the candidate entry (k, d). -/
theorem cands_apply (C : Vec Ideal S64x64 .f32) (q : Fin 100) (k d : Fin 64) :
    broadcastTo S100x64x64 (shapeCast S1x64x64 C shapeCasts_S64x64_S1x64x64) broadcasts_S1x64x64_S100x64x64 (ix3 q k d)
      = C (ix2 k d) := by
  refine (broadcastTo_apply _ broadcasts_S1x64x64_S100x64x64 (ix3 q k d) (ix3 (0 : Fin 1) k d) fun a => ?_).trans ?_
  · match a with
    | ⟨0, _⟩ => show 0 = if (1 : Nat) = 1 then 0 else q.val; rw [if_pos rfl]
    | ⟨1, _⟩ => show k.val = if (64 : Nat) = 1 then 0 else k.val; rw [if_neg (by decide)]
    | ⟨2, _⟩ => show d.val = if (64 : Nat) = 1 then 0 else d.val; rw [if_neg (by decide)]
  · exact shapeCast_ab_1ab_apply C shapeCasts_S64x64_S1x64x64 (0 : Fin 1) k d

/-- The body's value at (q, k): the root of the sum over the 64 features of the squared differences. -/
theorem pay_apply (G : Vec Ideal S100x64 .f32) (C : Vec Ideal S64x64 .f32) (q : Fin 100) (k : Fin 64) :
    k3_pay1 (F := Ideal) G C (ix2 q k)
      = Ideal.sqrt (∑ d : Fin 64, (G (ix2 q d) - C (ix2 k d)) * (G (ix2 q d) - C (ix2 k d))) := by
  unfold k3_pay1
  refine (congrArg Ideal.sqrt (Ideal.multiReduction_add_single _ _ reduces_S100x64x64_S100x64 _ _ (ix2 q k))).trans ?_
  refine congrArg Ideal.sqrt (Finset.sum_congr rfl fun (d : Fin 64) _ => ?_)
  have e : reduces_S100x64x64_S100x64.lift (ix2 q k) d = ix3 q k d :=
    funext fun a => Fin.ext (by match a with | ⟨0, _⟩ => rfl | ⟨1, _⟩ => rfl | ⟨2, _⟩ => rfl)
  rw [e, mulf_apply, subf_apply, rows_apply, cands_apply]

/-! ## The reference's stage at an index -/

/-- The difference array at (q, k, d): graph entry (q, d) less candidate entry (k, d). -/
theorem diff_apply (g : (⟨Cert.ReferenceIdeal.S100x64, .f32⟩ : BufTy).Contents (Elt Ideal))
    (cand : (⟨Cert.ReferenceIdeal.S64x64, .f32⟩ : BufTy).Contents (Elt Ideal)) (q : Fin 100) (k d : Fin 64) :
    Cert.ReferenceIdeal.Spec.diff (F := Ideal) g cand (ix3 q k d) = g (ix2 q d) - cand (ix2 k d) := by
  unfold Cert.ReferenceIdeal.Spec.diff
  rw [subf_apply]
  refine congrArg₂ (fun x y : EReal => x - y) ?_ ?_
  · refine (broadcastInDim_apply _ Cert.ReferenceIdeal.Gen.bcast_S100x1x64_S100x64x64_0_1_2 _ (ix3 q k d) (ix3 q (0 : Fin 1) d) fun a => ?_).trans
      (broadcastInDim_apply _ Cert.ReferenceIdeal.Gen.bcast_S100x64_S100x1x64_0_2 g (ix3 q (0 : Fin 1) d) (ix2 q d) fun a => ?_)
    · match a with
      | ⟨0, _⟩ => show q.val = if (100 : Nat) = 1 then 0 else q.val; rw [if_neg (by decide)]
      | ⟨1, _⟩ => show 0 = if (1 : Nat) = 1 then 0 else k.val; rw [if_pos rfl]
      | ⟨2, _⟩ => show d.val = if (64 : Nat) = 1 then 0 else d.val; rw [if_neg (by decide)]
    · match a with
      | ⟨0, _⟩ => show q.val = if (100 : Nat) = 1 then 0 else q.val; rw [if_neg (by decide)]
      | ⟨1, _⟩ => show d.val = if (64 : Nat) = 1 then 0 else d.val; rw [if_neg (by decide)]
  · refine (broadcastInDim_apply _ Cert.ReferenceIdeal.Gen.bcast_S1x64x64_S100x64x64_0_1_2 _ (ix3 q k d) (ix3 (0 : Fin 1) k d) fun a => ?_).trans
      (broadcastInDim_apply _ Cert.ReferenceIdeal.Gen.bcast_S64x64_S1x64x64_1_2 cand (ix3 (0 : Fin 1) k d) (ix2 k d) fun a => ?_)
    · match a with
      | ⟨0, _⟩ => show 0 = if (1 : Nat) = 1 then 0 else q.val; rw [if_pos rfl]
      | ⟨1, _⟩ => show k.val = if (64 : Nat) = 1 then 0 else k.val; rw [if_neg (by decide)]
      | ⟨2, _⟩ => show d.val = if (64 : Nat) = 1 then 0 else d.val; rw [if_neg (by decide)]
    · match a with
      | ⟨0, _⟩ => show k.val = if (64 : Nat) = 1 then 0 else k.val; rw [if_neg (by decide)]
      | ⟨1, _⟩ => show d.val = if (64 : Nat) = 1 then 0 else d.val; rw [if_neg (by decide)]

/-- The stage at (q, k): the same root of the same sum; the host's sum starts from the zero word. -/
theorem dist_apply (g : (⟨Cert.ReferenceIdeal.S100x64, .f32⟩ : BufTy).Contents (Elt Ideal))
    (cand : (⟨Cert.ReferenceIdeal.S64x64, .f32⟩ : BufTy).Contents (Elt Ideal)) (q : Fin 100) (k : Fin 64) :
    Cert.ReferenceIdeal.Spec.dist (F := Ideal) g cand (ix2 q k)
      = Ideal.sqrt (∑ d : Fin 64, (g (ix2 q d) - cand (ix2 k d)) * (g (ix2 q d) - cand (ix2 k d))) := by
  unfold Cert.ReferenceIdeal.Spec.dist
  show Ideal.sqrt (Ideal.hostReduceAdd Cert.ReferenceIdeal.Gen.reducesTo_S100x64x64_S100x64_d2 _ _ (ix2 q k)) = _
  rw [Ideal.hostReduceAdd_single Cert.ReferenceIdeal.Gen.reducesTo_S100x64x64_S100x64_d2 (by decide)]
  rw [show (Cert.ReferenceIdeal.Read.val_main_cst_22 (F := Ideal)) (Shape.Idx.first Cert.ReferenceIdeal.Gen.h_S_) = 0 from Ideal.ofBits_zero_f32, zero_add]
  refine congrArg Ideal.sqrt (Finset.sum_congr rfl fun (d : Fin 64) _ => ?_)
  have e : ∀ h : Cert.ReferenceIdeal.S100x64x64.Reduces [2] Cert.ReferenceIdeal.S100x64, h.lift (ix2 q k) d = ix3 q k d := fun h =>
    funext fun a => Fin.ext (by match a with | ⟨0, _⟩ => rfl | ⟨1, _⟩ => rfl | ⟨2, _⟩ => rfl)
  rw [e, mulf_apply, diff_apply]

/-! ## From the one block to the array -/

theorem hz : (![0, 0] : Fin 2 → Nat) = fun _ => 0 := funext fun a => by fin_cases a <;> rfl

/-- The printed index maps, decided over the grid: every window's block sits at block index (0, 0). -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- The graph rows' block is their whole array. -/
theorem rows_blk (c : Dev nD) (t : Fin cfg3.N) (y : S100x64.Idx) :
    (iblk3 V c 0 t : Vec Ideal S100x64 .f32) y = (V c main_v66 : S100x64.Idx → EReal) y := by
  obtain ⟨e0, e1, -⟩ := idx_facts t
  unfold iblk3
  rw [View.read_apply]
  show V c main_v66 _ = V c main_v66 _
  congr 1
  funext a; apply Fin.ext
  match a with
  | ⟨0, _⟩ => show win3_0.index t (0 : Fin 2) * 100 + 1 * (y 0).val = (y 0).val; rw [e0]; omega
  | ⟨1, _⟩ => show win3_0.index t (1 : Fin 2) * 64 + 1 * (y 1).val = (y 1).val; rw [e1]; omega

/-- The candidates' block is their whole array. -/
theorem cands_blk (c : Dev nD) (t : Fin cfg3.N) (y : S64x64.Idx) :
    (iblk3 V c 1 t : Vec Ideal S64x64 .f32) y = (V c main_arg8 : S64x64.Idx → EReal) y := by
  obtain ⟨-, -, e2, e3, -⟩ := idx_facts t
  unfold iblk3
  rw [View.read_apply]
  show V c main_arg8 _ = V c main_arg8 _
  congr 1
  funext a; apply Fin.ext
  match a with
  | ⟨0, _⟩ => show win3_1.index t (0 : Fin 2) * 64 + 1 * (y 0).val = (y 0).val; rw [e2]; omega
  | ⟨1, _⟩ => show win3_1.index t (1 : Fin 2) * 64 + 1 * (y 1).val = (y 1).val; rw [e3]; omega

/-- What the grid point writes back is its block of the stage. -/
theorem flushed_eq (c : Dev nD) (t : Fin cfg3.N) :
    (dat3 (F := Ideal) V c).flushed 2 t
      = ((cfg3.win 2).blk t).view.read (Elt Ideal) (Cert.ReferenceIdeal.Spec.dist (F := Ideal) (V c main_v66) (V c main_arg8)) := by
  show (cfg3.win 2).cut (grid3.coords t) ((dat3 (F := Ideal) V c).after 2 t) = _
  rw [after3_2]
  unfold out3_2
  rw [View.canon_unit_zero hz]
  simp only [View.ld_unit_zero (S := S100x64) hz, View.ld_unit_zero (S := S64x64) hz]
  obtain ⟨-, -, -, -, e4, e5⟩ := idx_facts t
  funext j
  obtain ⟨q, k, rfl⟩ : ∃ (q : Fin 100) (k : Fin 64), j = ix2 q k := ⟨j 0, j 1, eq_ix2 j⟩
  show k3_pay1 (F := Ideal) (iblk3 V c 0 t) (iblk3 V c 1 t) (ix2 q k)
    = Cert.ReferenceIdeal.Spec.dist (F := Ideal) (V c main_v66) (V c main_arg8) (((cfg3.win 2).blk t).view.emb (ix2 q k))
  have he : ((cfg3.win 2).blk t).view.emb (ix2 q k) = ix2 q k := by
    funext a; apply Fin.ext
    match a with
    | ⟨0, _⟩ => show win3_2.index t (0 : Fin 2) * 100 + 1 * q.val = q.val; rw [e4]; omega
    | ⟨1, _⟩ => show win3_2.index t (1 : Fin 2) * 64 + 1 * k.val = k.val; rw [e5]; omega
  rw [he]
  refine (pay_apply (iblk3 V c 0 t) (iblk3 V c 1 t) q k).trans ((dist_apply (V c main_v66) (V c main_arg8) q k).trans ?_).symm
  refine congrArg Ideal.sqrt (Finset.sum_congr rfl fun (d : Fin 64) _ => ?_)
  rw [rows_blk V c t (ix2 q d), cands_blk V c t (ix2 k d)]

/-- An index of the array is in the point's block iff each coordinate is in the block's range on its axis. -/
theorem mem_blk (t : Fin cfg3.N) (i : S100x64.Idx) :
    i ∈ ((cfg3.win 2).blk t).view.set ↔ ∀ a : Fin 2, win3_2.index t a * S100x64.size a ≤ (i a).val ∧ (i a).val < win3_2.index t a * S100x64.size a + S100x64.size a := by
  show i ∈ ((View.whole main_v67).slice (win3_2.rect t)).set ↔ _
  rw [View.set_slice_whole, Rect.mem_set_unit]
  exact Iff.rfl

/-- The region's output array once every grid point has written its block back. -/
theorem arr (c : Dev nD) : (dat3 (F := Ideal) V c).arrAt 2 cfg3.N
    = Cert.ReferenceIdeal.Spec.dist (F := Ideal) (V c main_v66) (V c main_arg8) := by
  refine (dat3 (F := Ideal) V c).arrAt_eq_of_cover 2 _ (fun t _ => flushed_eq V c t) fun i => ⟨t3_0, flush3_2 t3_0, ?_⟩
  rw [mem_blk]
  obtain ⟨-, -, -, -, e4, e5⟩ := idx_facts t3_0
  have h0 : (i 0).val < 100 := (i 0).isLt
  have h1 : (i 1).val < 64 := (i 1).isLt
  intro a
  match a with
  | ⟨0, _⟩ => show win3_2.index t3_0 (0 : Fin 2) * 100 ≤ (i 0).val ∧ (i 0).val < win3_2.index t3_0 (0 : Fin 2) * 100 + 100; rw [e4]; omega
  | ⟨1, _⟩ => show win3_2.index t3_0 (1 : Fin 2) * 64 ≤ (i 1).val ∧ (i 1).val < win3_2.index t3_0 (1 : Fin 2) * 64 + 64; rw [e5]; omega

end Cert.KernelIdeal.Region3

end
-- ==== Proof.Chain.lean ====
/-
  The kernel program's returned array, followed from the launch memory through its nine segments (five stretches of
  host operations and four kernel regions): at every boundary the buffers that matter hold the reference's stage of the
  program's arguments — the first projection after region 0, the first aggregation after the next stretch, the second
  projection after region 1, the second aggregation, the combined node rows after region 2, the pooled graph rows, the
  distances after region 3 — and the last stretch adds the trailing unit axis. Buffers a segment does not write are
  carried along unchanged.
-/
import proofs.«137382_j18743237280517_1_alg».proof.Proof.Gen.KernelIdeal.Frame
import proofs.«137382_j18743237280517_1_alg».proof.Proof.Stretches
import proofs.«137382_j18743237280517_1_alg».proof.Proof.Region0
import proofs.«137382_j18743237280517_1_alg».proof.Proof.Region1
import proofs.«137382_j18743237280517_1_alg».proof.Proof.Region2
import proofs.«137382_j18743237280517_1_alg».proof.Proof.Region3

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read Cert.ReferenceIdeal.Spec Cert.KernelIdeal.Stretch

variable (m : (ℓ : Loc nD τ sig) → Buf (Elt Ideal) ℓ) (ρ : Dev nD → PrngReg) (c : Dev nD)

/-! The program's arguments as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)

/-! ## After the first stretch -/

theorem b1_arg (b : Ref sig .tc) (hb : b ∈ ([main_arg0, main_arg1, main_arg2, main_arg3, main_arg4, main_arg5, main_arg6, main_arg7, main_arg8] : List (Ref sig .tc))) :
    W1 m ρ c (Proc.devRef .tc b) = m ((c : Thread nD τ).loc b) := s0_keep (W0 m ρ c) b hb
theorem b1_coef : W1 m ρ c (Proc.devRef .tc main_v21) = val_main_v22 (a1 m c) (a2 m c) := s0_coef (W0 m ρ c)
theorem b1_d2 : W1 m ρ c (Proc.devRef .tc main_v23) = val_main_v37 (a2 m c) := s0_dinv2 (W0 m ρ c)

/-! ## After region 0: the first projection -/

theorem b2_h1 : W2 m ρ c (Proc.devRef .tc main_v24) = val_main_v0 (a0 m c) (a4 m c) :=
  (W2_arr m ρ c 2).trans ((Region0.arr (V1 m ρ) c).trans
    (congrArg₂ (val_main_v0 (F := Ideal)) (b1_arg m ρ c main_arg0 (by decide)) (b1_arg m ρ c main_arg4 (by decide))))
theorem b2_coef : W2 m ρ c (Proc.devRef .tc main_v21) = val_main_v22 (a1 m c) (a2 m c) :=
  (W2_of_ne m ρ c main_v21 (by decide)).trans (b1_coef m ρ c)
theorem b2_d2 : W2 m ρ c (Proc.devRef .tc main_v23) = val_main_v37 (a2 m c) :=
  (W2_of_ne m ρ c main_v23 (by decide)).trans (b1_d2 m ρ c)
theorem b2_arg (b : Ref sig .tc) (hb : b ∈ ([main_arg1, main_arg2, main_arg3, main_arg5, main_arg6, main_arg7, main_arg8] : List (Ref sig .tc))) :
    W2 m ρ c (Proc.devRef .tc b) = m ((c : Thread nD τ).loc b) := by
  simp only [List.mem_cons, List.mem_nil_iff, or_false] at hb
  rcases hb with rfl | rfl | rfl | rfl | rfl | rfl | rfl
  all_goals exact (W2_of_ne m ρ c _ (by decide)).trans (b1_arg m ρ c _ (by decide))

/-! ## After the second stretch: the first aggregation -/

theorem b3_agg : W3 m ρ c (Proc.devRef .tc main_v37) = val_main_v35 (a0 m c) (a1 m c) (a2 m c) (a4 m c) := by
  refine (s1_agg (W2 m ρ c)).trans ?_
  rw [b2_h1, b2_coef, b2_arg m ρ c main_arg1 (by decide), b2_arg m ρ c main_arg2 (by decide)]
  exact (agg1_eq _ _ _ _).symm
theorem b3_bias : W3 m ρ c (Proc.devRef .tc main_v38) = val_main_v41 (a5 m c) := by
  refine (s1_bias (W2 m ρ c)).trans ?_
  rw [b2_arg m ρ c main_arg5 (by decide)]
theorem b3_h1 : W3 m ρ c (Proc.devRef .tc main_v24) = val_main_v0 (a0 m c) (a4 m c) :=
  (s1_keep (W2 m ρ c) main_v24 (by decide)).trans (b2_h1 m ρ c)
theorem b3_coef : W3 m ρ c (Proc.devRef .tc main_v21) = val_main_v22 (a1 m c) (a2 m c) :=
  (s1_keep (W2 m ρ c) main_v21 (by decide)).trans (b2_coef m ρ c)
theorem b3_d2 : W3 m ρ c (Proc.devRef .tc main_v23) = val_main_v37 (a2 m c) :=
  (s1_keep (W2 m ρ c) main_v23 (by decide)).trans (b2_d2 m ρ c)
theorem b3_arg (b : Ref sig .tc) (hb : b ∈ ([main_arg1, main_arg2, main_arg3, main_arg6, main_arg7, main_arg8] : List (Ref sig .tc))) :
    W3 m ρ c (Proc.devRef .tc b) = m ((c : Thread nD τ).loc b) := by
  simp only [List.mem_cons, List.mem_nil_iff, or_false] at hb
  rcases hb with rfl | rfl | rfl | rfl | rfl | rfl
  all_goals exact (s1_keep (W2 m ρ c) _ (by decide)).trans (b2_arg m ρ c _ (by decide))

/-! ## After region 1: the second projection -/

theorem b4_h2 : W4 m ρ c (Proc.devRef .tc main_v39)
    = val_main_v45 (a0 m c) (a1 m c) (a2 m c) (a4 m c) (a5 m c) (a6 m c) := by
  refine (W4_arr m ρ c 5).trans ((Region1.arr (V3 m ρ) c).trans ?_)
  show layer1 (W3 m ρ c (Proc.devRef .tc main_v37)) (W3 m ρ c (Proc.devRef .tc main_v24)) (W3 m ρ c (Proc.devRef .tc main_v23))
    (W3 m ρ c (Proc.devRef .tc main_v38)) (W3 m ρ c (Proc.devRef .tc main_arg6)) = _
  rw [b3_agg, b3_h1, b3_d2, b3_bias, b3_arg m ρ c main_arg6 (by decide)]
  exact (h2_eq _ _ _ _ _ _).symm
theorem b4_coef : W4 m ρ c (Proc.devRef .tc main_v21) = val_main_v22 (a1 m c) (a2 m c) :=
  (W4_of_ne m ρ c main_v21 (by decide)).trans (b3_coef m ρ c)
theorem b4_d2 : W4 m ρ c (Proc.devRef .tc main_v23) = val_main_v37 (a2 m c) :=
  (W4_arr m ρ c 2).trans ((((dat1 (V3 m ρ) c).arrAt_in 2 rfl _).trans (A_eq1 (V3 m ρ) c 2)).trans (b3_d2 m ρ c))
theorem b4_arg (b : Ref sig .tc) (hb : b ∈ ([main_arg1, main_arg2, main_arg3, main_arg7, main_arg8] : List (Ref sig .tc))) :
    W4 m ρ c (Proc.devRef .tc b) = m ((c : Thread nD τ).loc b) := by
  simp only [List.mem_cons, List.mem_nil_iff, or_false] at hb
  rcases hb with rfl | rfl | rfl | rfl | rfl
  all_goals exact (W4_of_ne m ρ c _ (by decide)).trans (b3_arg m ρ c _ (by decide))

/-! ## After the third stretch: the second aggregation -/

theorem b5_agg : W5 m ρ c (Proc.devRef .tc main_v52)
    = val_main_v80 (a0 m c) (a1 m c) (a2 m c) (a4 m c) (a5 m c) (a6 m c) := by
  refine (s2_agg (W4 m ρ c)).trans ?_
  rw [b4_h2, b4_coef, b4_arg m ρ c main_arg1 (by decide), b4_arg m ρ c main_arg2 (by decide)]
  exact (agg2_eq _ _ _ _ _ _).symm
theorem b5_bias : W5 m ρ c (Proc.devRef .tc main_v53) = val_main_v86 (a7 m c) := by
  refine (s2_bias (W4 m ρ c)).trans ?_
  rw [b4_arg m ρ c main_arg7 (by decide)]
theorem b5_h2 : W5 m ρ c (Proc.devRef .tc main_v39)
    = val_main_v45 (a0 m c) (a1 m c) (a2 m c) (a4 m c) (a5 m c) (a6 m c) :=
  (s2_keep (W4 m ρ c) main_v39 (by decide)).trans (b4_h2 m ρ c)
theorem b5_d2 : W5 m ρ c (Proc.devRef .tc main_v23) = val_main_v37 (a2 m c) :=
  (s2_keep (W4 m ρ c) main_v23 (by decide)).trans (b4_d2 m ρ c)
theorem b5_arg3 : W5 m ρ c (Proc.devRef .tc main_arg3) = a3 m c :=
  (s2_keep (W4 m ρ c) main_arg3 (by decide)).trans (b4_arg m ρ c main_arg3 (by decide))
theorem b5_arg8 : W5 m ρ c (Proc.devRef .tc main_arg8) = a8 m c :=
  (s2_keep (W4 m ρ c) main_arg8 (by decide)).trans (b4_arg m ρ c main_arg8 (by decide))

/-! ## After region 2: the combined node rows -/

theorem b6_z : W6 m ρ c (Proc.devRef .tc main_v54)
    = val_main_v88 (a0 m c) (a1 m c) (a2 m c) (a4 m c) (a5 m c) (a6 m c) (a7 m c) := by
  refine (W6_arr m ρ c 4).trans ((Region2.arr (V5 m ρ) c).trans ?_)
  show layer2 (W5 m ρ c (Proc.devRef .tc main_v52)) (W5 m ρ c (Proc.devRef .tc main_v39)) (W5 m ρ c (Proc.devRef .tc main_v23))
    (W5 m ρ c (Proc.devRef .tc main_v53)) = _
  rw [b5_agg, b5_h2, b5_d2, b5_bias]
  exact (z_eq _ _ _ _ _ _ _).symm
theorem b6_arg3 : W6 m ρ c (Proc.devRef .tc main_arg3) = a3 m c :=
  (W6_of_ne m ρ c main_arg3 (by decide)).trans (b5_arg3 m ρ c)
theorem b6_arg8 : W6 m ρ c (Proc.devRef .tc main_arg8) = a8 m c :=
  (W6_of_ne m ρ c main_arg8 (by decide)).trans (b5_arg8 m ρ c)

/-! ## After the fourth stretch: the pooled graph rows -/

theorem b7_g : W7 m ρ c (Proc.devRef .tc main_v66)
    = val_main_v100 (a0 m c) (a1 m c) (a2 m c) (a3 m c) (a4 m c) (a5 m c) (a6 m c) (a7 m c) := by
  refine (s3_pool (W6 m ρ c)).trans ?_
  rw [b6_z, b6_arg3]
  exact (g_eq _ _ _ _ _ _ _ _).symm
theorem b7_arg8 : W7 m ρ c (Proc.devRef .tc main_arg8) = a8 m c :=
  (s3_keep (W6 m ρ c)).trans (b6_arg8 m ρ c)

/-! ## After region 3 and the last stretch: the distances, with their unit axis -/

theorem b8_dist : W8 m ρ c (Proc.devRef .tc main_v67)
    = dist (val_main_v100 (a0 m c) (a1 m c) (a2 m c) (a3 m c) (a4 m c) (a5 m c) (a6 m c) (a7 m c)) (a8 m c) := by
  refine (W8_arr m ρ c 2).trans ((Region3.arr (V7 m ρ) c).trans ?_)
  show dist (W7 m ρ c (Proc.devRef .tc main_v66)) (W7 m ρ c (Proc.devRef .tc main_arg8)) = _
  rw [b7_g, b7_arg8]

/-- THE RESULT: the returned array is the reference's result of the launch arguments. -/
theorem result : W9 m ρ c (Proc.devRef .tc main_v68)
    = val_main_v109 (a0 m c) (a1 m c) (a2 m c) (a3 m c) (a4 m c) (a5 m c) (a6 m c) (a7 m c) (a8 m c) := by
  refine (s4_out (W8 m ρ c)).trans ?_
  rw [b8_dist]
  exact (out_eq _ _ _ _ _ _ _ _ _).symm

end Cert.KernelIdeal.Chain

end
-- ==== Proof.lean ====
/-
  The certificate of a two-layer graph convolution with mean pooling and a distance to a bank of candidates.

  The kernel program computes, on the host, the degree scale dinv = (1 + in-degree)^(-1/2), the edge coefficients
  dinv (src e) · dinv (dst e) and the two message aggregations (gather, multiply, scatter-add) and the mean pooling,
  and in four kernel regions the dense parts: h1 = x · W1 (row blocks of 5000, both factors narrowed to bf16, f32
  accumulation); h2 = max (agg1 + h1 · dinv² + b1) 0 · W2; z = agg2 + h2 · dinv² + b2; and the Euclidean distance of
  every pooled row to every candidate row. The reference computes the same formulas with whole-array host operations.
  Over the extended reals a change of float format is the identity, a block product into a zero accumulator is the plain
  finite sum, and the row blocks tile their arrays, so each kernel region leaves exactly the reference's stage of the
  same inputs; the host operations between the regions are the reference's own, applied to equal arrays. No algebraic
  law beyond reading both sides at an index is used, so the finiteness of the inputs is never opened.

  The three frames: the kernel programs' from their generated frame certificates, the reference's from its generated
  run with the result dropped. The idealization rewrote no operation, so the preservation claim is trivial.
-/
import proofs.«137382_j18743237280517_1_alg».proof.Defs
import proofs.«137382_j18743237280517_1_alg».proof.Proof.Gen.Kernel
import proofs.«137382_j18743237280517_1_alg».proof.Proof.Gen.Kernel.Skeleton
import proofs.«137382_j18743237280517_1_alg».proof.Proof.Gen.Kernel.Launch
import proofs.«137382_j18743237280517_1_alg».proof.Proof.Gen.Kernel.Points
import proofs.«137382_j18743237280517_1_alg».proof.Proof.Gen.Kernel.Frame
import proofs.«137382_j18743237280517_1_alg».proof.Proof.Gen.KernelIdeal
import proofs.«137382_j18743237280517_1_alg».proof.Proof.Gen.KernelIdeal.Skeleton
import proofs.«137382_j18743237280517_1_alg».proof.Proof.Gen.KernelIdeal.Launch
import proofs.«137382_j18743237280517_1_alg».proof.Proof.Gen.KernelIdeal.Points
import proofs.«137382_j18743237280517_1_alg».proof.Proof.Gen.KernelIdeal.Frame
import proofs.«137382_j18743237280517_1_alg».proof.Proof.Gen.ReferenceIdeal
import proofs.«137382_j18743237280517_1_alg».proof.Proof.Gen.ReferenceIdeal.Run
import proofs.«137382_j18743237280517_1_alg».proof.Proof.Gen.ReferenceIdeal.Read
import proofs.«137382_j18743237280517_1_alg».proof.Proof.Gen.Pre_finite_inputs
import proofs.«137382_j18743237280517_1_alg».proof.Proof.KernelRun
import proofs.«137382_j18743237280517_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end, the kernel program's returned array at the fold of
    its segments, which is the reference's result of the kernel's arguments, and the reference's at its result of its own
    arguments: the same function of equal arrays. -/
theorem algebraic : Cert.algebraic_KernelIdeal_ReferenceIdeal := by
  intro m ρ m' ρ' _ hagree
  refine ⟨fun c => Cert.KernelIdeal.Gen.W9 m ρ c (Proc.devRef .tc Cert.KernelIdeal.main_v68),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v109 m' c
    = Cert.KernelIdeal.Gen.W9 m ρ c (Proc.devRef .tc Cert.KernelIdeal.main_v68)
  obtain ⟨h0, h1, h2, h3, h4, h5, h6, h7, h8⟩ := hagree c
  rw [Cert.ReferenceIdeal.Read.val_main_v109_eq, Cert.KernelIdeal.Chain.result m ρ c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
